-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S500000x6 : Shape := ⟨2, ![500000, 6]⟩
abbrev S500000 : Shape := ⟨1, ![500000]⟩
abbrev S100x128 : Shape := ⟨2, ![100, 128]⟩
abbrev S6x128 : Shape := ⟨2, ![6, 128]⟩
abbrev S128 : Shape := ⟨1, ![128]⟩
abbrev S384x128 : Shape := ⟨2, ![384, 128]⟩
abbrev S_ : Shape := ⟨0, ![]⟩

class Facts : Prop where
  bcast_S_S500000x6 : S_.BroadcastsInDim S500000x6 (![] : Fin 0 → Fin S500000x6.rank)
  reducesTo_S500000x6_S_d0_1 : S500000x6.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg0 : IVec S50000 32) (main_v33 : IVec S_ 1) : IVec S_ 1 :=
  let main_c_12 : IVec S_ 32 := constantI S_ 32 0#32
  let main_v34 : IVec S50000 32 := broadcastInDim S50000 ![] bcast_S_S50000 main_c_12
  let main_v35 : IVec S50000 1 := cmpi .sge main_arg0 main_v34
  let main_c_13 : IVec S_ 32 := constantI S_ 32 100#32
  let main_v36 : IVec S50000 32 := broadcastInDim S50000 ![] bcast_S_S50000 main_c_13
  let main_v37 : IVec S50000 1 := cmpi .slt main_arg0 main_v36
  let main_v38 : IVec S50000 1 := andi main_v35 main_v37
  let main_c_14 : IVec S_ 1 := constantI S_ 1 1#1
  let main_v39 : IVec S_ 1 := (fun x v => Host.reduce IntOp.andi x v reducesTo_S50000_S_d0 h_S_) main_v38 main_c_14
  let main_v40 : IVec S_ 1 := andi main_v33 main_v39
  main_v40

def fn_part1 {F : FTy → Type} [FloatOps F] (main_arg0 : IVec S50000 32) (main_arg7 : FVec F S384x128 .f32) (main_arg8 : FVec F S128 .f32) (main_arg9 : FVec F S6x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S384x128 .f32 := Host.absf main_arg7
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S6x128 .f32 := Host.absf main_arg9
  let main_cst_10 : FVec F S_ .f32 := constant S_ .f32 0x7F800000#32
  let main_v30 : FVec F S6x128 .f32 := broadcastInDim S6x128 ![] bcast_S_S6x128 main_cst_10
  let main_v31 : IVec S6x128 1 := cmpf .olt main_v29 main_v30
  let main_c_11 : IVec S_ 1 := constantI S_ 1 1#1
  let main_v32 : IVec S_ 1 := (fun x v => Host.reduce IntOp.andi x v reducesTo_S6x128_S_d0_1 h_S_) main_v31 main_c_11
  let main_v33 : IVec S_ 1 := andi main_v28 main_v32
  fn_part2 (F := F) main_arg0 main_v33

def fn {F : FTy → Type} [FloatOps F] (main_arg0 : IVec S50000 32) (main_arg1 : FVec F S500000x6 .f32) (main_arg2 : IVec S500000 32) (main_arg3 : IVec S500000 32) (main_arg4 : FVec F S100x128 .f32) (main_arg5 : FVec F S6x128 .f32) (main_arg6 : FVec F S128 .f32) (main_arg7 : FVec F S384x128 .f32) (main_arg8 : FVec F S128 .f32) (main_arg9 : FVec F S6x128 .f32) : IVec S_ 1 :=
  let main_v0 : FVec F S500000x6 .f32 := Host.absf main_arg1
  let main_cst : FVec F S_ .f32 := constant S_ .f32 0x7F800000#32
  let main_v1 : FVec F S500000x6 .f32 := broadcastInDim S500000x6 ![] bcast_S_S500000x6 main_cst
  let main_v2 : IVec S500000x6 1 := cmpf .olt main_v0 main_v1
  let main_c : IVec S_ 1 := constantI S_ 1 1#1
  let main_v3 : IVec S_ 1 := (fun x v => Host.reduce IntOp.andi x v reducesTo_S500000x6_S_d0_1 h_S_) main_v2 main_c
  let main_v4 : FVec F S100x128 .f32 := Host.absf main_arg4
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S6x128 .f32 := Host.absf main_arg5
  let main_cst_2 : FVec F S_ .f32 := constant S_ .f32 0x7F800000#32
  let main_v10 : FVec F S6x128 .f32 := broadcastInDim S6x128 ![] bcast_S_S6x128 main_cst_2
  let main_v11 : IVec S6x128 1 := cmpf .olt main_v9 main_v10
  let main_c_3 : IVec S_ 1 := constantI S_ 1 1#1
  let main_v12 : IVec S_ 1 := (fun x v => Host.reduce IntOp.andi x v reducesTo_S6x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg7 main_arg8 main_arg9 main_v13 main_v16
-- ==== Kernel.lean ====
abbrev S50000 : Shape := ⟨1, ![50000]⟩
abbrev S500000x6 : Shape := ⟨2, ![500000, 6]⟩
abbrev S500000 : Shape := ⟨1, ![500000]⟩
abbrev S100x128 : Shape := ⟨2, ![100, 128]⟩
abbrev S6x128 : Shape := ⟨2, ![6, 128]⟩
abbrev S128 : Shape := ⟨1, ![128]⟩
abbrev S384x128 : Shape := ⟨2, ![384, 128]⟩
abbrev S_ : Shape := ⟨0, ![]⟩
abbrev S500000x1 : Shape := ⟨2, ![500000, 1]⟩
abbrev S128x128 : Shape := ⟨2, ![128, 128]⟩
abbrev S6x256 : Shape := ⟨2, ![6, 256]⟩
abbrev S503808 : Shape := ⟨1, ![503808]⟩
abbrev S503808x6 : Shape := ⟨2, ![503808, 6]⟩
abbrev S503808x128 : Shape := ⟨2, ![503808, 128]⟩
abbrev S4096 : Shape := ⟨1, ![4096]⟩
abbrev S4096x6 : Shape := ⟨2, ![4096, 6]⟩
abbrev S4096x128 : Shape := ⟨2, ![4096, 128]⟩
abbrev S4096x1 : Shape := ⟨2, ![4096, 1]⟩
abbrev S4096x256 : Shape := ⟨2, ![4096, 256]⟩
abbrev S1x128 : Shape := ⟨2, ![1, 128]⟩
abbrev S500000x128 : Shape := ⟨2, ![500000, 128]⟩

abbrev nBuf : Space → Nat
  | .hbm => 53
  | .vmem => 17
  | .smem => 0
  | _ => 0

abbrev bufTy : (tb : Table) → Fin (tcTables nBuf tb) → BufTy
  | .hbm, ⟨0, _⟩ => ⟨S50000, .i32⟩
  | .hbm, ⟨1, _⟩ => ⟨S500000x6, .f32⟩
  | .hbm, ⟨2, _⟩ => ⟨S500000, .i32⟩
  | .hbm, ⟨3, _⟩ => ⟨S500000, .i32⟩
  | .hbm, ⟨4, _⟩ => ⟨S100x128, .f32⟩
  | .hbm, ⟨5, _⟩ => ⟨S6x128, .f32⟩
  | .hbm, ⟨6, _⟩ => ⟨S128, .f32⟩
  | .hbm, ⟨7, _⟩ => ⟨S384x128, .f32⟩
  | .hbm, ⟨8, _⟩ => ⟨S128, .f32⟩
  | .hbm, ⟨9, _⟩ => ⟨S6x128, .f32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000, .i32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S500000, .i32⟩
  | .hbm, ⟨28, _⟩ => ⟨S_, .i32⟩
  | .hbm, ⟨29, _⟩ => ⟨S_, .f32⟩
  | .hbm, ⟨30, _⟩ => ⟨S128x128, .f32⟩
  | .hbm, ⟨31, _⟩ => ⟨S128x128, .bf16⟩
  | .hbm, ⟨32, _⟩ => ⟨S128x128, .f32⟩
  | .hbm, ⟨33, _⟩ => ⟨S128x128, .bf16⟩
  | .hbm, ⟨34, _⟩ => ⟨S128x128, .f32⟩
  | .hbm, ⟨35, _⟩ => ⟨S128x128, .bf16⟩
  | .hbm, ⟨36, _⟩ => ⟨S128x128, .f32⟩
  | .hbm, ⟨37, _⟩ => ⟨S128x128, .bf16⟩
  | .hbm, ⟨38, _⟩ => ⟨S6x256, .f32⟩
  | .hbm, ⟨39, _⟩ => ⟨S6x256, .bf16⟩
  | .hbm, ⟨40, _⟩ => ⟨S_, .i32⟩
  | .hbm, ⟨41, _⟩ => ⟨S_, .i32⟩
  | .hbm, ⟨42, _⟩ => ⟨S503808, .i32⟩
  | .hbm, ⟨43, _⟩ => ⟨S_, .i32⟩
  | .hbm, ⟨44, _⟩ => ⟨S_, .i32⟩
  | .hbm, ⟨45, _⟩ => ⟨S503808, .i32⟩
  | .hbm, ⟨46, _⟩ => ⟨S_, .i32⟩
  | .hbm, ⟨47, _⟩ => ⟨S_, .f32⟩
  | .hbm, ⟨48, _⟩ => ⟨S503808x6, .f32⟩
  | .hbm, ⟨49, _⟩ => ⟨S503808x128, .f32⟩
  | .hbm, ⟨50, _⟩ => ⟨S503808x128, .f32⟩
  | .hbm, ⟨51, _⟩ => ⟨S500000x128, .f32⟩
  | .hbm, ⟨52, _⟩ => ⟨S500000x128, .f32⟩
  | .local _ .vmem, ⟨0, _⟩ => ⟨S4096, .i32⟩
  | .local _ .vmem, ⟨1, _⟩ => ⟨S4096, .i32⟩
  | .local _ .vmem, ⟨2, _⟩ => ⟨S4096, .i32⟩
  | .local _ .vmem, ⟨3, _⟩ => ⟨S4096, .i32⟩
  | .local _ .vmem, ⟨4, _⟩ => ⟨S4096x6, .f32⟩
  | .local _ .vmem, ⟨5, _⟩ => ⟨S4096x6, .f32⟩
  | .local _ .vmem, ⟨6, _⟩ => ⟨S128x128, .bf16⟩
  | .local _ .vmem, ⟨7, _⟩ => ⟨S6x256, .bf16⟩
  | .local _ .vmem, ⟨8, _⟩ => ⟨S128, .f32⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_call0_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_call1_v0 : Ref sig .tc := ⟨.hbm, 41, rfl⟩
abbrev main_v24 : Ref sig .tc := ⟨.hbm, 42, rfl⟩
abbrev main_c_5 : Ref sig .tc := ⟨.hbm, 43, rfl⟩
abbrev main_call2_v0 : Ref sig .tc := ⟨.hbm, 44, rfl⟩
abbrev main_v25 : Ref sig .tc := ⟨.hbm, 45, rfl⟩
abbrev main_c_6 : Ref sig .tc := ⟨.hbm, 46, rfl⟩
abbrev main_call3_v0 : Ref sig .tc := ⟨.hbm, 47, rfl⟩
abbrev main_v26 : Ref sig .tc := ⟨.hbm, 48, rfl⟩
abbrev main_v27_0 : Ref sig .tc := ⟨.hbm, 49, rfl⟩
abbrev main_v27_1 : Ref sig .tc := ⟨.hbm, 50, rfl⟩
abbrev main_v28 : Ref sig .tc := ⟨.hbm, 51, rfl⟩
abbrev main_v29 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![123], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  pads_S100x128_S128x128_0280_000 : S100x128.Pads (![0, 0] : Fin 2 → Nat) ![28, 0] ![0, 0] S128x128
  h_S_ : 0 < S_.numel
  bitsLt_bf16_f32 : FTy.bits .bf16 < FTy.bits .f32
  slices_S384x128_S128x128_0_0 : S384x128.Slices ![0, 0] S128x128
  slices_S384x128_S128x128_128_0 : S384x128.Slices ![128, 0] S128x128
  slices_S384x128_S128x128_256_0 : S384x128.Slices ![256, 0] S128x128
  concatenates_S6x128_S6x128_S6x256_d1 : Shape.Concatenates [S6x128, S6x128] S6x256 1
  pads_S500000_S503808_038080 : S500000.Pads (![0] : Fin 1 → Nat) ![3808] ![0] S503808
  pads_S500000x6_S503808x6_038080_000 : S500000x6.Pads (![0, 0] : Fin 2 → Nat) ![3808, 0] ![0, 0] S503808x6
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4096_S4096_0 : ∀ a, (![0] : Fin 1 → Nat) a + S4096.size a ≤ S4096.size a
  h_S4096 : 0 < S4096.numel
  shapeCasts_S4096_S4096 : S4096.ShapeCasts S4096
  iota_S4096x128_d1_w32 : S4096x128.Iotas .tc 32 [1]
  shapeCasts_S4096_S4096x1 : S4096.ShapeCasts S4096x1
  broadcasts_S4096x1_S4096x128 : S4096x1.Broadcasts S4096x128
  natLt_1_32 : 1 < 32
  inb_S4096x6_S4096x6_0_0 : ∀ a, (![0, 0] : Fin 2 → Nat) a + S4096x6.size a ≤ S4096x6.size a
  h_S4096x6 : 0 < S4096x6.numel
  shapeCasts_S4096x6_S4096x6 : S4096x6.ShapeCasts S4096x6
  inb_S6x256_S6x256_0_0 : ∀ a, (![0, 0] : Fin 2 → Nat) a + S6x256.size a ≤ S6x256.size a
  h_S6x256 : 0 < S6x256.numel
  shapeCasts_S6x256_S6x256 : S6x256.ShapeCasts S6x256
  inb_S128_S128_0 : ∀ a, (![0] : Fin 1 → Nat) a + S128.size a ≤ S128.size a
  h_S128 : 0 < S128.numel
  slices_S4096x256_o0_0_S4096x128 : S4096x256.Slices ![0, 0] S4096x128
  shapeCasts_S128_S1x128 : S128.ShapeCasts S1x128
  broadcasts_S1x128_S4096x128 : S1x128.Broadcasts S4096x128
  slices_S4096x256_o0_128_S4096x128 : S4096x256.Slices ![0, 128] S4096x128
  inb_S4096x128_S4096x128_0_0 : ∀ a, (![0, 0] : Fin 2 → Nat) a + S4096x128.size a ≤ S4096x128.size a
  h_S4096x128 : 0 < S4096x128.numel
  slices_S503808x128_S500000x128_0_0 : S503808x128.Slices ![0, 0] S500000x128
  gather_S50000_S500000x1_S500000_n_0_n_n_0_1_1_wf : GatherDims.WF S50000 S500000x1 S500000 [] [0] [] [0] [] 1 ![1]
  dot_S4096x128_S128x128_S4096x128_1_0_0_1_n_n_wf : DotDims.WF S4096x128 S128x128 S4096x128 [1] [0] [0] [1] [] []
  dot_S4096x6_S6x256_S4096x256_1_0_0_1_n_n_wf : DotDims.WF S4096x6 S6x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S503808.size a
  hwx0_0 : ∀ i : grid0.Coords, EltTy.bits .i32 = 32 ∨ (Rect.block (s := S503808) S4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S503808.size a
  hwx0_1 : ∀ i : grid0.Coords, EltTy.bits .i32 = 32 ∨ (Rect.block (s := S503808) S4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x6.size a ≤ S503808x6.size a
  hwx0_2 : ∀ i : grid0.Coords, EltTy.bits .f32 = 32 ∨ (Rect.block (s := S503808x6) S4096x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x256.size a ≤ S6x256.size a
  hwx0_4 : ∀ i : grid0.Coords, EltTy.bits .bf16 = 32 ∨ (Rect.block (s := S6x256) S6x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x128.size a ≤ S503808x128.size a
  hwx0_10 : ∀ i : grid0.Coords, EltTy.bits .f32 = 32 ∨ (Rect.block (s := S503808x128) S4096x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x128.size a ≤ S503808x128.size a
  hwx0_11 : ∀ i : grid0.Coords, EltTy.bits .f32 = 32 ∨ (Rect.block (s := S503808x128) S4096x128.size (cc0_transform_11 i) (hinb0_11 i)).WholeWords (EltTy.packing .f32)

variable [Facts₀]

def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x6_S6x256_S4096x256_1_0_0_1_n_n : DotDims S4096x6 S6x256 S4096x256 where
  lhsContracting := [1]
  rhsContracting := [0]
  lhsNonContracting := [0]
  rhsNonContracting := [1]
  lhsBatch := []
  rhsBatch := []
  wf := dot_S4096x6_S6x256_S4096x256_1_0_0_1_n_n_wf

abbrev win0_0 : Pipeline.Window sig grid0 :=
  Pipeline.Window.ofSpec (Memref.whole main_v24) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S4096x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S6x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v27_0) S4096x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v27_1) S4096x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000 : Shape := ⟨1, ![50000]⟩
abbrev S500000x6 : Shape := ⟨2, ![500000, 6]⟩
abbrev S500000 : Shape := ⟨1, ![500000]⟩
abbrev S100x128 : Shape := ⟨2, ![100, 128]⟩
abbrev S6x128 : Shape := ⟨2, ![6, 128]⟩
abbrev S128 : Shape := ⟨1, ![128]⟩
abbrev S384x128 : Shape := ⟨2, ![384, 128]⟩
abbrev S_ : Shape := ⟨0, ![]⟩
abbrev S50000x1 : Shape := ⟨2, ![50000, 1]⟩
abbrev S50000x128 : Shape := ⟨2, ![50000, 128]⟩
abbrev S500000x128 : Shape := ⟨2, ![500000, 128]⟩
abbrev S1x128 : Shape := ⟨2, ![1, 128]⟩
abbrev S500000x1 : Shape := ⟨2, ![500000, 1]⟩
abbrev S500000x384 : Shape := ⟨2, ![500000, 384]⟩

abbrev nBuf : Space → Nat
  | .hbm => 66
  | .vmem => 0
  | .smem => 0
  | _ => 0

abbrev bufTy : (tb : Table) → Fin (tcTables nBuf tb) → BufTy
  | .hbm, ⟨0, _⟩ => ⟨S50000, .i32⟩
  | .hbm, ⟨1, _⟩ => ⟨S500000x6, .f32⟩
  | .hbm, ⟨2, _⟩ => ⟨S500000, .i32⟩
  | .hbm, ⟨3, _⟩ => ⟨S500000, .i32⟩
  | .hbm, ⟨4, _⟩ => ⟨S100x128, .f32⟩
  | .hbm, ⟨5, _⟩ => ⟨S6x128, .f32⟩
  | .hbm, ⟨6, _⟩ => ⟨S128, .f32⟩
  | .hbm, ⟨7, _⟩ => ⟨S384x128, .f32⟩
  | .hbm, ⟨8, _⟩ => ⟨S128, .f32⟩
  | .hbm, ⟨9, _⟩ => ⟨S6x128, .f32⟩
  | .hbm, ⟨10, _⟩ => ⟨S_, .i32⟩
  | .hbm, ⟨11, _⟩ => ⟨S50000, .i32⟩
  | .hbm, ⟨12, _⟩ => ⟨S50000, .i1⟩
  | .hbm, ⟨13, _⟩ => ⟨S_, .i32⟩
  | .hbm, ⟨14, _⟩ => ⟨S50000, .i32⟩
  | .hbm, ⟨15, _⟩ => ⟨S50000, .i32⟩
  | .hbm, ⟨16, _⟩ => ⟨S50000, .i32⟩
  | .hbm, ⟨17, _⟩ => ⟨S50000x1, .i32⟩
  | .hbm, ⟨18, _⟩ => ⟨S50000x128, .f32⟩
  | .hbm, ⟨19, _⟩ => ⟨S500000x128, .f32⟩
  | .hbm, ⟨20, _⟩ => ⟨S1x128, .f32⟩
  | .hbm, ⟨21, _⟩ => ⟨S500000x128, .f32⟩
  | .hbm, ⟨22, _⟩ => ⟨S500000x128, .f32⟩
  | .hbm, ⟨23, _⟩ => ⟨S500000x128, .f32⟩
  | .hbm, ⟨24, _⟩ => ⟨S500000x128, .f32⟩
  | .hbm, ⟨25, _⟩ => ⟨S_, .f32⟩
  | .hbm, ⟨26, _⟩ => ⟨S500000x128, .f32⟩
  | .hbm, ⟨27, _⟩ => ⟨S500000x128, .f32⟩
  | .hbm, ⟨28, _⟩ => ⟨S_, .f32⟩
  | .hbm, ⟨29, _⟩ => ⟨S500000x128, .f32⟩
  | .hbm, ⟨30, _⟩ => ⟨S500000x128, .f32⟩
  | .hbm, ⟨31, _⟩ => ⟨S500000x128, .f32⟩
  | .hbm, ⟨32, _⟩ => ⟨S_, .i32⟩
  | .hbm, ⟨33, _⟩ => ⟨S500000, .i32⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S500000, .i32⟩
  | .hbm, ⟨39, _⟩ => ⟨S500000x1, .i32⟩
  | .hbm, ⟨40, _⟩ => ⟨S500000x128, .f32⟩
  | .hbm, ⟨41, _⟩ => ⟨S_, .i32⟩
  | .hbm, ⟨42, _⟩ => ⟨S500000, .i32⟩
  | .hbm, ⟨43, _⟩ => ⟨S500000, .i1⟩
  | .hbm, ⟨44, _⟩ => ⟨S_, .i32⟩
  | .hbm, ⟨45, _⟩ => ⟨S500000, .i32⟩
  | .hbm, ⟨46, _⟩ => ⟨S500000, .i32⟩
  | .hbm, ⟨47, _⟩ => ⟨S500000, .i32⟩
  | .hbm, ⟨48, _⟩ => ⟨S500000x1, .i32⟩
  | .hbm, ⟨49, _⟩ => ⟨S500000x128, .f32⟩
  | .hbm, ⟨50, _⟩ => ⟨S500000x384, .f32⟩
  | .hbm, ⟨51, _⟩ => ⟨S500000x128, .f32⟩
  | .hbm, ⟨52, _⟩ => ⟨S1x128, .f32⟩
  | .hbm, ⟨53, _⟩ => ⟨S500000x128, .f32⟩
  | .hbm, ⟨54, _⟩ => ⟨S500000x128, .f32⟩
  | .hbm, ⟨55, _⟩ => ⟨S500000x128, .f32⟩
  | .hbm, ⟨56, _⟩ => ⟨S500000x128, .f32⟩
  | .hbm, ⟨57, _⟩ => ⟨S_, .f32⟩
  | .hbm, ⟨58, _⟩ => ⟨S500000x128, .f32⟩
  | .hbm, ⟨59, _⟩ => ⟨S500000x128, .f32⟩
  | .hbm, ⟨60, _⟩ => ⟨S_, .f32⟩
  | .hbm, ⟨61, _⟩ => ⟨S500000x128, .f32⟩
  | .hbm, ⟨62, _⟩ => ⟨S500000x128, .f32⟩
  | .hbm, ⟨63, _⟩ => ⟨S500000x128, .f32⟩
  | .hbm, ⟨64, _⟩ => ⟨S500000x128, .f32⟩
  | .hbm, ⟨65, _⟩ => ⟨S500000x128, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v11 : Ref sig .tc := ⟨.hbm, 31, rfl⟩
abbrev main_c_1 : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  gather_S100x128_S50000x1_S50000x128_1_0_n_n_0_1_1128_wf : GatherDims.WF S100x128 S50000x1 S50000x128 [1] [0] [] [0] [] 1 ![1, 128]
  dot_S500000x6_S6x128_S500000x128_1_0_0_1_n_n_wf : DotDims.WF S500000x6 S6x128 S500000x128 [1] [0] [0] [1] [] []
  gather_S50000x128_S500000x1_S500000x128_1_0_n_n_0_1_1128_wf : GatherDims.WF S50000x128 S500000x1 S500000x128 [1] [0] [] [0] [] 1 ![1, 128]
  dot_S500000x384_S384x128_S500000x128_1_0_0_1_n_n_wf : DotDims.WF S500000x384 S384x128 S500000x128 [1] [0] [0] [1] [] []

variable [Facts₀]

def gather_S100x128_S50000x1_S50000x128_1_0_n_n_0_1_1128 : GatherDims S100x128 S50000x1 S50000x128 where
  offsetDims := [1]
  collapsedSliceDims := [0]
  operandBatchingDims := []
  startIndicesBatchingDims := []
  startIndexMap := [0]
  indexVectorDim := 1
  sliceSizes := ![1, 128]
  wf := gather_S100x128_S50000x1_S50000x128_1_0_n_n_0_1_1128_wf
def dot_S500000x6_S6x128_S500000x128_1_0_0_1_n_n : DotDims S500000x6 S6x128 S500000x128 where
  lhsContracting := [1]
  rhsContracting := [0]
  lhsNonContracting := [0]
  rhsNonContracting := [1]
  lhsBatch := []
  rhsBatch := []
  wf := dot_S500000x6_S6x128_S500000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf

class Facts : Prop extends Facts₀ where

variable [Facts]
-- ==== Proof.PreDecode.lean ====
/-
  The precondition read back: every class word lies in [0, 100).
-/
import proofs.«419893_j6828998001281_3_alg».proof.Pre_finite_inputs
import proofs.«419893_j6828998001281_3_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.Decode

open Idealize.ShloMosaic Idealize.ShloMosaic.ValueIdx Cert.Pre_finite_inputs

/-- The rank-0 shape has exactly one index: there is no axis to give a coordinate on. -/
instance subsingleton_scalar_idx : Subsingleton S_.Idx := ⟨fun a b => funext fun d => d.elim0⟩

/-- A 32-bit word that is at least 0 and below 100 when read signed is below 100 when read unsigned:
    a nonnegative signed reading has its top bit clear, so both readings agree. -/
theorem toNat_lt_of_signed_range (w : BitVec 32) (h0 : IntOp.cmpi .sge w 0#32 = 1#1)
    (h1 : IntOp.cmpi .slt w 100#32 = 1#1) : w.toNat < 100 := by
  rw [IntOp.cmpi_sge, show (0#32 : BitVec 32).toInt = 0 from by decide] at h0
  rw [IntOp.cmpi_slt, show (100#32 : BitVec 32).toInt = 100 from by decide] at h1
  have hlt : 2 * w.toNat < 2 ^ 32 := BitVec.toInt_pos_iff.1 h0
  rw [BitVec.toInt_eq_toNat_of_lt hlt] at h1
  omega

/-- Where the printed precondition is all ones, every class word is at least 0 and below 100 as a signed word,
    that is, below 100 as a natural number. -/
theorem classes_in_range [Facts] (a0 : IVec S50000 32) (a1 : FVec Ideal S500000x6 .f32) (a2 a3 : IVec S500000 32) (a4 : FVec Ideal S100x128 .f32)
    (a5 : FVec Ideal S6x128 .f32) (a6 : FVec Ideal S128 .f32) (a7 : FVec Ideal S384x128 .f32) (a8 : FVec Ideal S128 .f32) (a9 : FVec Ideal S6x128 .f32)
    (h : fn (F := Ideal) a0 a1 a2 a3 a4 a5 a6 a7 a8 a9 = fun _ => 1#1) (n : Fin 50000) : (a0 (ix1 n)).toNat < 100 := by
  -- the precondition at its one index: a conjunction whose last operand is the range test reduced by "and"
  have e := congrFun h ix0
  dsimp only [fn, fn_part1, fn_part2] at e
  -- a conjunction of one-bit words is 1 only if both operands are; keep the last one
  obtain ⟨-, hall⟩ := IntOp.andi_eq_one.1 e
  -- a reduction by "and" over every axis that came out 1 met a 1 at every index, in particular at n
  have hn := Host.reduce_andi_all _ _ _ _ _ hall (ix1 n)
  -- at index n the reduced word is (x[n] ≥ 0) and (x[n] < 100), both signed
  obtain ⟨h0, h1⟩ := IntOp.andi_eq_one.1 hn
  exact toNat_lt_of_signed_range (a0 (ix1 n)) h0 h1

end Cert.Pre_finite_inputs.Decode

end
-- ==== Proof.Spec.lean ====
/-
  The mathematics of the edge layer, on the extended reals.

  Every edge r has two end nodes, named by the words i r and j r; a node n has a class, named by the word x n. A word
  names a position of an axis of extent N the way a jnp index does: a negative word has N added, and the result is
  read signed and clamped into [0, N − 1]. With E the table of class embeddings (100 × 128), for edge r and column c:

    radial W r c = Σ_q rbf[r, q] · W[q, c]                                         (q over the 6 radial functions)
    gate0 r k    = silu (radial W0 r k + b0[k])                                    silu y = y · 1 / (1 + e^(−y))
    lin r c      = ((Σ_k E[class(node i r), k] · Wl[k, c] + Σ_k E[class(node j r), k] · Wl[128 + k, c])
                      + Σ_k gate0 r k · Wl[256 + k, c]) + bl[c]                    (each k over 128 columns)
    e1 r c       = silu (lin r c)
    e2 r c       = radial W1 r c · e1 r c

  Two laws of finite sums on the extended reals join the two programs to this: a sum against an indicator of one
  position is the term at that position (0 · y = 0 for every extended real y, so nothing needs to be finite), and a
  sum over 384 = 128 + 128 + 128 positions is the sum of the three stretches.
-/
import Idealize.ShloMosaic.Lib.ValueIdx
import Idealize.ShloMosaic.PureOps.Ideal.Laws

noncomputable section

open scoped BigOperators

namespace Cert.EdgeGate

open Idealize.ShloMosaic Idealize.ShloMosaic.ValueIdx

abbrev SNodes : Shape := ⟨1, ![50000]⟩
abbrev SEdges : Shape := ⟨1, ![500000]⟩
abbrev SRbf : Shape := ⟨2, ![500000, 6]⟩
abbrev SEmb : Shape := ⟨2, ![100, 128]⟩
abbrev SProj : Shape := ⟨2, ![6, 128]⟩
abbrev SBias : Shape := ⟨1, ![128]⟩
abbrev SLin : Shape := ⟨2, ![384, 128]⟩
abbrev SOut : Shape := ⟨2, ![500000, 128]⟩

/-- A jnp index word wrapped: a negative word has the axis's extent (the word n) added. -/
def wrap (n w : BitVec 32) : BitVec 32 := Scalar.select (IntOp.cmpi .slt w 0#32) (IntOp.addi w n) w

/-- The position of an axis of extent N a word names: the word read signed, clamped into [0, N − 1]. -/
def pos (N : Nat) (hN : 0 < N) (w : BitVec 32) : Fin N := ⟨min w.toInt.toNat (N - 1), by omega⟩

/-- The node an edge-end word names. -/
def nodeOf (e : IVec SEdges 32) (r : Fin 500000) : Fin 50000 := pos 50000 (by decide) (wrap 50000#32 (e (ix1 r)))

/-- The class word of the node an edge-end word names. -/
def classWord (x : IVec SNodes 32) (e : IVec SEdges 32) (r : Fin 500000) : BitVec 32 := x (ix1 (nodeOf e r))

/-- The row of the embedding table a class word names. -/
def classOf (w : BitVec 32) : Fin 100 := pos 100 (by decide) (wrap 100#32 w)

/-- x · 1 / (1 + e^(−x)) on the extended reals. -/
def silu (y : EReal) : EReal := y * Ideal.logistic y

/-- The radial projection of edge r on column c. -/
def radial (rbf : FVec Ideal SRbf .f32) (W : FVec Ideal SProj .f32) (r : Fin 500000) (c : Fin 128) : EReal :=
  ∑ q : Fin 6, rbf (ix2 r q) * W (ix2 q c)

/-- The gated first radial projection. -/
def gate0 (rbf : FVec Ideal SRbf .f32) (W0 : FVec Ideal SProj .f32) (b0 : FVec Ideal SBias .f32) (r : Fin 500000) (k : Fin 128) : EReal :=
  silu (radial rbf W0 r k + b0 (ix1 k))

/-- The three stretches of the weight matrix's 384 rows. -/
abbrev row0 (k : Fin 128) : Fin 384 := ⟨k.val, by omega⟩
abbrev row1 (k : Fin 128) : Fin 384 := ⟨128 + k.val, by omega⟩
abbrev row2 (k : Fin 128) : Fin 384 := ⟨256 + k.val, by omega⟩

/-- One entry of the linear layer from its three input rows (the two embedding rows and the gated radial row), the
    three matching columns of weights and the bias: the three stretches summed in this order, then the bias. -/
def rowLin (ri rj g w0 w1 w2 : Fin 128 → EReal) (bl : EReal) : EReal :=
  ((∑ k : Fin 128, ri k * w0 k + ∑ k : Fin 128, rj k * w1 k) + ∑ k : Fin 128, g k * w2 k) + bl

/-- The linear layer on the concatenation [E[class i], E[class j], gate0], written as its three stretches. -/
def lin (x : IVec SNodes 32) (rbf : FVec Ideal SRbf .f32) (ei ej : IVec SEdges 32) (emb : FVec Ideal SEmb .f32)
    (W0 : FVec Ideal SProj .f32) (b0 : FVec Ideal SBias .f32) (Wl : FVec Ideal SLin .f32) (bl : FVec Ideal SBias .f32)
    (r : Fin 500000) (c : Fin 128) : EReal :=
  rowLin (fun k => emb (ix2 (classOf (classWord x ei r)) k)) (fun k => emb (ix2 (classOf (classWord x ej r)) k))
    (fun k => gate0 rbf W0 b0 r k) (fun k => Wl (ix2 (row0 k) c)) (fun k => Wl (ix2 (row1 k) c))
    (fun k => Wl (ix2 (row2 k) c)) (bl (ix1 c))

/-- The first result. -/
def e1 (x : IVec SNodes 32) (rbf : FVec Ideal SRbf .f32) (ei ej : IVec SEdges 32) (emb : FVec Ideal SEmb .f32)
    (W0 : FVec Ideal SProj .f32) (b0 : FVec Ideal SBias .f32) (Wl : FVec Ideal SLin .f32) (bl : FVec Ideal SBias .f32)
    (r : Fin 500000) (c : Fin 128) : EReal :=
  silu (lin x rbf ei ej emb W0 b0 Wl bl r c)

/-- The second result: the second radial projection gating the first result. -/
def e2 (x : IVec SNodes 32) (rbf : FVec Ideal SRbf .f32) (ei ej : IVec SEdges 32) (emb : FVec Ideal SEmb .f32)
    (W0 : FVec Ideal SProj .f32) (b0 : FVec Ideal SBias .f32) (Wl : FVec Ideal SLin .f32) (bl : FVec Ideal SBias .f32)
    (W1 : FVec Ideal SProj .f32) (r : Fin 500000) (c : Fin 128) : EReal :=
  radial rbf W1 r c * e1 x rbf ei ej emb W0 b0 Wl bl r c

/-- The results as arrays. -/
def E1 (x : IVec SNodes 32) (rbf : FVec Ideal SRbf .f32) (ei ej : IVec SEdges 32) (emb : FVec Ideal SEmb .f32)
    (W0 : FVec Ideal SProj .f32) (b0 : FVec Ideal SBias .f32) (Wl : FVec Ideal SLin .f32) (bl : FVec Ideal SBias .f32) :
    FVec Ideal SOut .f32 := fun j => e1 x rbf ei ej emb W0 b0 Wl bl (j 0) (j 1)
def E2 (x : IVec SNodes 32) (rbf : FVec Ideal SRbf .f32) (ei ej : IVec SEdges 32) (emb : FVec Ideal SEmb .f32)
    (W0 : FVec Ideal SProj .f32) (b0 : FVec Ideal SBias .f32) (Wl : FVec Ideal SLin .f32) (bl : FVec Ideal SBias .f32)
    (W1 : FVec Ideal SProj .f32) : FVec Ideal SOut .f32 := fun j => e2 x rbf ei ej emb W0 b0 Wl bl W1 (j 0) (j 1)

/-- The row of a 128-row table a word below 128 names (a larger word is cut to the last row; the programs never
    read it there). -/
def row128 (w : BitVec 32) : Fin 128 := ⟨min w.toNat 127, by omega⟩

/-- The two halves of the 256 columns of the two radial weight matrices laid side by side. -/
abbrev colA (k : Fin 128) : Fin 256 := ⟨k.val, by omega⟩
abbrev colB (k : Fin 128) : Fin 256 := ⟨128 + k.val, by omega⟩

/-! ## Words in range -/

/-- A class word in [0, 100) names its own value: no wrap, no clamp. -/
theorem classOf_val {w : BitVec 32} (hw : w.toNat < 100) : (classOf w).val = w.toNat := by
  have h31 : w.toNat < 2 ^ 31 := by omega
  have hm : w.msb = false := BitVec.msb_eq_false_iff_two_mul_lt.mpr (by omega)
  have hti : w.toInt = w.toNat := by rw [BitVec.toInt_eq_msb_cond, hm]; simp
  have hs : IntOp.cmpi .slt w 0#32 = 0#1 := by
    unfold IntOp.cmpi
    have : w.slt 0#32 = false := by
      simp only [BitVec.slt, hti]; simp
    rw [this]; rfl
  unfold classOf pos wrap
  rw [hs, select_zero]
  show min w.toInt.toNat (100 - 1) = w.toNat
  rw [hti, Int.toNat_natCast]
  omega

/-! ## Two laws of finite sums on the extended reals -/

/-- A sum against the indicator of one position is the term there. -/
theorem sum_indicator {n : Nat} (p : Fin n) (ind : Fin n → EReal) (T : Fin n → EReal)
    (h1 : ind p = 1) (h0 : ∀ k, k ≠ p → ind k = 0) : ∑ k : Fin n, ind k * T k = T p := by
  rw [Finset.sum_eq_single p (fun k _ hk => by rw [h0 k hk, zero_mul]) (fun h => absurd (Finset.mem_univ p) h), h1, one_mul]

/-- A sum against an indicator that is nowhere one is zero. -/
theorem sum_indicator_none {n : Nat} (ind : Fin n → EReal) (T : Fin n → EReal)
    (h0 : ∀ k, ind k = 0) : ∑ k : Fin n, ind k * T k = 0 :=
  Finset.sum_eq_zero fun k _ => by rw [h0 k, zero_mul]

/-- A sum over 384 positions is the sum of its three stretches of 128. -/
theorem sum_three_stretches (f : Fin 384 → EReal) :
    ∑ k : Fin 384, f k = (∑ k : Fin 128, f (row0 k) + ∑ k : Fin 128, f (row1 k)) + ∑ k : Fin 128, f (row2 k) := by
  have e : (384 : Nat) = 128 + 128 + 128 := rfl
  rw [← Equiv.sum_comp (finCongr e).symm f, Fin.sum_univ_add, Fin.sum_univ_add]
  refine congrArg₂ (· + ·) (congrArg₂ (· + ·) ?_ ?_) ?_
  · exact Finset.sum_congr rfl fun k _ => congrArg f (Fin.ext rfl)
  · exact Finset.sum_congr rfl fun k _ => congrArg f (Fin.ext rfl)
  · exact Finset.sum_congr rfl fun k _ => congrArg f (Fin.ext rfl)

end Cert.EdgeGate

end
-- ==== Proof.LibTakeRows.lean ====
/-
  A take of rows read at an index.

  A gather of an operand [R, C] at a column [M, 1] of start indices, whose start-indexed row axis is collapsed and whose
  column axis is the one offset axis, reads at (p, q) the operand's row named by start index p — read as a signed
  integer and clamped into [0, R − 1] — at column q.
-/
import Idealize.ShloMosaic.Lib.ValueIdx
import Idealize.ShloMosaic.Lib.Pipeline.Value

noncomputable section

namespace Cert.TakeRows

open Idealize.ShloMosaic Idealize.ShloMosaic.ValueIdx

variable {α : Type}

/-- The dimension numbers of a take of rows, opened: operand [R, C], a column [M, 1] of start indices, result [M, C];
    the rows are start-indexed and collapsed, the columns are the one offset axis. The start indices' batching axes and
    the slice sizes stay as the record has them. -/
abbrev takeRowsDims {R C M : Nat} (sb : List (Fin 2)) (ss : Fin 2 → Nat)
    (wf : GatherDims.WF ⟨2, ![R, C]⟩ ⟨2, ![M, 1]⟩ ⟨2, ![M, C]⟩ [1] [0] [] [0] sb 1 ss) :
    GatherDims ⟨2, ![R, C]⟩ ⟨2, ![M, 1]⟩ ⟨2, ![M, C]⟩ where
  offsetDims := [1]
  collapsedSliceDims := [0]
  operandBatchingDims := []
  startIndicesBatchingDims := sb
  startIndexMap := [0]
  indexVectorDim := 1
  sliceSizes := ss
  wf := wf

/-- On the row axis the operand coordinate of result (p, q) is start index p, read signed and clamped to R − 1 (the slice
    size on a collapsed axis is one); no batching, no offset. -/
theorem takeRows_axis0 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (0 : Fin 2) + (takeRowsDims sb ss wf).batchCoord (ix2 p q) (0 : Fin 2)
        + (takeRowsDims sb ss wf).offCoord (ix2 p q) (0 : Fin 2)
      = min (idx (ix2 p (0 : Fin 1))).toInt.toNat (R - 1) := by
  have hm : (0 : Fin 2) ∈ (takeRowsDims sb ss wf).startIndexMap := by
    show (0 : Fin 2) ∈ ([0] : List (Fin 2)); decide
  have hsl : ss 0 = 1 := (takeRowsDims sb ss wf).slice_collapsed 0 (by show (0 : Fin 2) ∈ ([0] : List (Fin 2)); decide)
  rw [GatherDims.batchCoord_eq_zero _ _ _ List.not_mem_nil,
    GatherDims.offCoord_eq_zero _ _ _ (fun h => ((GatherDims.mem_sKept _ _).mp h).1
      (show (0 : Fin 2) ∈ ([0] : List (Fin 2)) by decide))]
  simp only [Nat.add_zero]
  unfold GatherDims.start
  rw [dif_pos hm]
  have hsi : (takeRowsDims sb ss wf).siIdx (ix2 p q) ⟨List.idxOf (0 : Fin 2) (takeRowsDims sb ss wf).startIndexMap,
      List.idxOf_lt_length_iff.2 hm⟩ = ix2 p (0 : Fin 1) := by
    funext b; refine Fin.ext ?_
    match b with
    | ⟨0, _⟩ => rfl
    | ⟨1, _⟩ => rfl
  rw [hsi]
  show min (idx (ix2 p (0 : Fin 1))).toInt.toNat (R - ss 0) = _
  rw [hsl]

/-- On the column axis the operand coordinate of result (p, q) is q: no start index, no batching, offset q. -/
theorem takeRows_axis1 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (1 : Fin 2) + (takeRowsDims sb ss wf).batchCoord (ix2 p q) (1 : Fin 2)
        + (takeRowsDims sb ss wf).offCoord (ix2 p q) (1 : Fin 2) = q.val := by
  have hm : (1 : Fin 2) ∉ (takeRowsDims sb ss wf).startIndexMap := by
    show (1 : Fin 2) ∉ ([0] : List (Fin 2)); decide
  have hk : (1 : Fin 2) ∈ (takeRowsDims sb ss wf).sKept :=
    (GatherDims.mem_sKept _ _).mpr ⟨by show (1 : Fin 2) ∉ ([0] : List (Fin 2)); decide, List.not_mem_nil⟩
  rw [GatherDims.batchCoord_eq_zero _ _ _ List.not_mem_nil]
  unfold GatherDims.start GatherDims.offCoord
  rw [dif_neg hm, dif_pos hk]
  simp only [Nat.add_zero, Nat.zero_add]
  rfl

/-- THE TAKE OF ROWS. A gather of an operand [R, C] at a column [M, 1] of start indices, whose one start-indexed axis
    (the rows) is collapsed and whose column axis is the one offset axis (the printed dimension numbers, each by `rfl`),
    reads at (p, q) the operand's row named by start index p, read signed and clamped into [0, R − 1], at column q. -/
theorem take_rows_apply {R C M : Nat} (d : GatherDims ⟨2, ![R, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1) (hR : 0 < R)
    (x : (⟨2, ![R, C]⟩ : Shape).Idx → α) (idx : IVec ⟨2, ![M, 1]⟩ 32) (p : Fin M) (q : Fin C) :
    Host.gather d x idx (ix2 p q)
      = x (ix2 (⟨min (idx (ix2 p (0 : Fin 1))).toInt.toNat (R - 1), by omega⟩ : Fin R) q) := by
  obtain ⟨od, cd, ob, sb, sim, ivd, ss, wf⟩ := d
  dsimp only at hoff hcoll hob hsim hivd
  subst hoff hcoll hob hsim hivd
  show Host.gather (takeRowsDims sb ss wf) x idx (ix2 p q) = _
  unfold Host.gather
  congr 1
  funext a
  refine Fin.ext ?_
  show (takeRowsDims sb ss wf).start (ix2 p q) idx a + (takeRowsDims sb ss wf).batchCoord (ix2 p q) a
    + (takeRowsDims sb ss wf).offCoord (ix2 p q) a = _
  match a with
  | ⟨0, _⟩ => exact takeRows_axis0 sb ss wf idx p q
  | ⟨1, _⟩ => exact takeRows_axis1 sb ss wf idx p q

end Cert.TakeRows

end
-- ==== Proof.RefValue.lean ====
/-
  The reference's two results read at an index: the edge layer of Spec.lean.

  The road, stage by stage. A take of rows of a table at a column of words reads, at (p, q), the table's row named by
  word p (read signed, clamped into the table's rows) at column q; the word is the wrapped one (a negative word has
  the axis's extent added), so the row is Spec's `pos` of Spec's `wrap`. Two takes in a row (the class embedding of
  the node an edge end names) compose. The concatenation of three [500000, 128] pieces along the columns reads, in
  column 128·s + k, piece s at column k; so the sum over the 384 rows of weights is the sum of three stretches of 128,
  each against one piece. The activation y · (1 / (1 + e^(−y))) is silu y, the constant's pattern being the number one.
-/
import proofs.«419893_j6828998001281_3_alg».proof.Proof.Gen.ReferenceIdeal.Run
import proofs.«419893_j6828998001281_3_alg».proof.Proof.Gen.ReferenceIdeal.Read
import proofs.«419893_j6828998001281_3_alg».proof.Proof.Spec
import proofs.«419893_j6828998001281_3_alg».proof.Proof.LibTakeRows
import Idealize.ShloMosaic.Lib.ValueIdx
import Idealize.ShloMosaic.Lib.Pipeline.Value

noncomputable section

open scoped BigOperators

namespace Cert.ReferenceIdeal.RefValue

open Idealize.ShloMosaic Idealize.ShloMosaic.TcCoe Idealize.ShloMosaic.ValueIdx Idealize.SL.Sem Cert.ReferenceIdeal Cert.ReferenceIdeal.Gen Cert.EdgeGate
open Cert.ReferenceIdeal.Read

/-! ### The activation -/

/-- The pattern 0x3F800000 denotes the number one. -/
theorem one_bits : (FloatOps.ofBits (F := Ideal) .f32 0x3F800000#32 : Ideal .f32) = (1 : EReal) :=
  IdealRules.sign_bit.ideal_onePat .f32

/-- y · (1 / (1 + e^(−y))), written out operation by operation, is silu y: the quotient 1 / (1 + e^(−y)) is the
    logistic function by its definition. -/
theorem silu_spelt (y : Ideal .f32) :
    FloatOps.mulf y (FloatOps.hostDivf (FloatOps.ofBits .f32 0x3F800000#32)
      (FloatOps.addf (FloatOps.ofBits .f32 0x3F800000#32) (FloatOps.hostUnary .exp (FloatOps.hostNegf y)))) = silu y := by
  rw [one_bits]
  rfl

/-! ### The wrapped words and the takes of rows -/

/-- The column of words at (p, ·) is read at position p of the row of words. -/
theorem idx5 (p : Fin 50000) (z : Fin 1) : idx_main_v5 (ix2 p z) = ix1 p := by
  funext a; match a with | ⟨0, _⟩ => rfl

/-- The column of class words at node p: the class word of p, wrapped on an axis of extent 100. -/
theorem v5_apply (x0 : IVec SNodes 32) (p : Fin 50000) (z : Fin 1) :
    val_main_v5 (F := Ideal) x0 (ix2 p z) = wrap 100#32 (x0 (ix1 p)) := by
  rw [val_main_v5_apply, val_main_v4_apply, val_main_v1_apply, val_main_v3_apply, val_main_v0_apply, val_main_v2_apply, val_main_c_apply, val_main_c_0_apply, idx5]
  rfl

/-- The node features: at (p, q), the embedding table's row of node p's class, at column q. The clamp of the take of
    rows into [0, 99] is the position a word names on an axis of extent 100. -/
theorem v6_apply (x0 : IVec SNodes 32) (x4 : FVec Ideal SEmb .f32) (p : Fin 50000) (q : Fin 128) :
    val_main_v6 (F := Ideal) x0 x4 (ix2 p q) = x4 (ix2 (classOf (x0 (ix1 p))) q) := by
  unfold val_main_v6
  refine (Cert.TakeRows.take_rows_apply gather_S100x128_S50000x1_S50000x128_1_0_n_n_0_1_1128 rfl rfl rfl rfl rfl (by decide) x4 _ p q).trans ?_
  refine congrArg (fun t : Fin 100 => x4 (ix2 t q)) (Fin.ext ?_)
  show min _ _ = min (wrap 100#32 (x0 (ix1 p))).toInt.toNat (100 - 1)
  rw [v5_apply]

theorem idx17 (r : Fin 500000) (z : Fin 1) : idx_main_v17 (ix2 r z) = ix1 r := by
  funext a; match a with | ⟨0, _⟩ => rfl
theorem idx24 (r : Fin 500000) (z : Fin 1) : idx_main_v24 (ix2 r z) = ix1 r := by
  funext a; match a with | ⟨0, _⟩ => rfl

/-- The column of first-end words at edge r: the word of r, wrapped on an axis of extent 50000. -/
theorem v17_apply (x2 : IVec SEdges 32) (r : Fin 500000) (z : Fin 1) :
    val_main_v17 (F := Ideal) x2 (ix2 r z) = wrap 50000#32 (x2 (ix1 r)) := by
  rw [val_main_v17_apply, val_main_v16_apply, val_main_v13_apply, val_main_v15_apply, val_main_v12_apply, val_main_v14_apply, val_main_c_1_apply, val_main_c_2_apply, idx17]
  rfl

/-- The column of second-end words at edge r, likewise. -/
theorem v24_apply (x3 : IVec SEdges 32) (r : Fin 500000) (z : Fin 1) :
    val_main_v24 (F := Ideal) x3 (ix2 r z) = wrap 50000#32 (x3 (ix1 r)) := by
  rw [val_main_v24_apply, val_main_v23_apply, val_main_v20_apply, val_main_v22_apply, val_main_v19_apply, val_main_v21_apply, val_main_c_3_apply, val_main_c_4_apply, idx24]
  rfl

/-- The first-end features: at (r, q), the node features' row of the node edge r's first end names, that is the
    embedding row of that node's class, at column q. -/
theorem v18_apply (x0 : IVec SNodes 32) (x2 : IVec SEdges 32) (x4 : FVec Ideal SEmb .f32) (r : Fin 500000) (q : Fin 128) :
    val_main_v18 (F := Ideal) x0 x2 x4 (ix2 r q) = x4 (ix2 (classOf (classWord x0 x2 r)) q) := by
  unfold val_main_v18
  refine (Cert.TakeRows.take_rows_apply gather_S50000x128_S500000x1_S500000x128_1_0_n_n_0_1_1128 rfl rfl rfl rfl rfl (by decide) (val_main_v6 (F := Ideal) x0 x4) _ r q).trans ?_
  refine ((congrArg (fun t : Fin 50000 => val_main_v6 (F := Ideal) x0 x4 (ix2 t q)) (Fin.ext ?_)).trans (v6_apply x0 x4 (nodeOf x2 r) q))
  show min _ _ = min (wrap 50000#32 (x2 (ix1 r))).toInt.toNat (50000 - 1)
  rw [v17_apply]

/-- The second-end features, likewise. -/
theorem v25_apply (x0 : IVec SNodes 32) (x3 : IVec SEdges 32) (x4 : FVec Ideal SEmb .f32) (r : Fin 500000) (q : Fin 128) :
    val_main_v25 (F := Ideal) x0 x3 x4 (ix2 r q) = x4 (ix2 (classOf (classWord x0 x3 r)) q) := by
  unfold val_main_v25
  refine (Cert.TakeRows.take_rows_apply gather_S50000x128_S500000x1_S500000x128_1_0_n_n_0_1_1128 rfl rfl rfl rfl rfl (by decide) (val_main_v6 (F := Ideal) x0 x4) _ r q).trans ?_
  refine ((congrArg (fun t : Fin 50000 => val_main_v6 (F := Ideal) x0 x4 (ix2 t q)) (Fin.ext ?_)).trans (v6_apply x0 x4 (nodeOf x3 r) q))
  show min _ _ = min (wrap 50000#32 (x3 (ix1 r))).toInt.toNat (50000 - 1)
  rw [v24_apply]

/-! ### The gated first radial projection -/

/-- Entry (r, k) of a product [500000, 6] · [6, 128] takes row r of the left factor and column k of the right. -/
theorem lidx7 (r : Fin 500000) (k : Fin 128) (q : Fin 6) : lidx_main_v7 (ix2 r k) q = ix2 r q := by
  funext a; match a with | ⟨0, _⟩ => rfl | ⟨1, _⟩ => rfl
theorem ridx7 (r : Fin 500000) (k : Fin 128) (q : Fin 6) : ridx_main_v7 (ix2 r k) q = ix2 q k := by
  funext a; match a with | ⟨0, _⟩ => rfl | ⟨1, _⟩ => rfl
/-- A bias row spread over the edges is read, at (r, k), at k. -/
theorem idx89 (r : Fin 500000) (k : Fin 128) : idx_main_v8 (idx_main_v9 (ix2 r k)) = ix1 k := by
  funext a; match a with | ⟨0, _⟩ => rfl

/-- The first radial projection plus its bias, at (r, k). -/
theorem v10_apply (x1 : FVec Ideal SRbf .f32) (x5 : FVec Ideal SProj .f32) (x6 : FVec Ideal SBias .f32) (r : Fin 500000) (k : Fin 128) :
    val_main_v10 (F := Ideal) x1 x5 x6 (ix2 r k) = radial x1 x5 r k + x6 (ix1 k) := by
  rw [val_main_v10_apply, val_main_v7_apply, val_main_v9_apply, val_main_v8_apply, idx89]
  refine congrArg (· + x6 (ix1 k)) ?_
  exact Finset.sum_congr rfl fun q _ => by rw [lidx7, ridx7]

/-- Its activation: the gated first radial projection. -/
theorem v11_apply (x1 : FVec Ideal SRbf .f32) (x5 : FVec Ideal SProj .f32) (x6 : FVec Ideal SBias .f32) (r : Fin 500000) (k : Fin 128) :
    val_main_v11 (F := Ideal) x1 x5 x6 (ix2 r k) = gate0 x1 x5 x6 r k := by
  rw [val_main_v11_apply, val_main_call0_v5_apply, val_main_call0_v4_apply, val_main_call0_cst_0_apply, val_main_call0_v3_apply,
    val_main_call0_v2_apply, val_main_call0_cst_apply, val_main_call0_v1_apply, val_main_call0_v0_apply, v10_apply]
  exact silu_spelt _

/-! ### The concatenation of the three pieces, read in each stretch of its 384 columns

Piece s (s = 0, 1, 2) spans columns [128·s, 128·s + 128): column 128·s + k of the whole is column k of piece s, the
row unchanged. -/

section Concat
variable (x0 : IVec SNodes 32) (x1 : FVec Ideal SRbf .f32) (x2 x3 : IVec SEdges 32) (x4 : FVec Ideal SEmb .f32)
  (x5 : FVec Ideal SProj .f32) (x6 : FVec Ideal SBias .f32)

theorem v26_apply0 (r : Fin 500000) (k : Fin 128) :
    val_main_v26 (F := Ideal) x0 x1 x2 x3 x4 x5 x6 (ix2 r (row0 k)) = val_main_v18 (F := Ideal) x0 x2 x4 (ix2 r k) := by
  unfold val_main_v26
  refine concatenate_apply_piece _ _ _ (ix2 r (row0 k)) 0 ?_ S500000x128 (val_main_v18 (F := Ideal) x0 x2 x4) rfl rfl 0 rfl
    (ix2 r k) (fun b hb => ?_) ?_
  · exact (by decide : (0 : Nat) < 3)
  · match b with
    | ⟨0, _⟩ => rfl
    | ⟨1, _⟩ => exact absurd rfl hb
  · exact Nat.zero_add _

theorem v26_apply1 (r : Fin 500000) (k : Fin 128) :
    val_main_v26 (F := Ideal) x0 x1 x2 x3 x4 x5 x6 (ix2 r (row1 k)) = val_main_v25 (F := Ideal) x0 x3 x4 (ix2 r k) := by
  unfold val_main_v26
  refine concatenate_apply_piece _ _ _ (ix2 r (row1 k)) 1 ?_ S500000x128 (val_main_v25 (F := Ideal) x0 x3 x4) rfl rfl 128 rfl
    (ix2 r k) (fun b hb => ?_) ?_
  · exact (by decide : (1 : Nat) < 3)
  · match b with
    | ⟨0, _⟩ => rfl
    | ⟨1, _⟩ => exact absurd rfl hb
  · rfl

theorem v26_apply2 (r : Fin 500000) (k : Fin 128) :
    val_main_v26 (F := Ideal) x0 x1 x2 x3 x4 x5 x6 (ix2 r (row2 k)) = val_main_v11 (F := Ideal) x1 x5 x6 (ix2 r k) := by
  unfold val_main_v26
  refine concatenate_apply_piece _ _ _ (ix2 r (row2 k)) 2 ?_ S500000x128 (val_main_v11 (F := Ideal) x1 x5 x6) rfl rfl 256 rfl
    (ix2 r k) (fun b hb => ?_) ?_
  · exact (by decide : (2 : Nat) < 3)
  · match b with
    | ⟨0, _⟩ => rfl
    | ⟨1, _⟩ => exact absurd rfl hb
  · rfl

end Concat

/-! ### The linear layer: the sum over 384 rows of weights split into its three stretches -/

section Lin
variable (x0 : IVec SNodes 32) (x1 : FVec Ideal SRbf .f32) (x2 x3 : IVec SEdges 32) (x4 : FVec Ideal SEmb .f32)
  (x5 : FVec Ideal SProj .f32) (x6 : FVec Ideal SBias .f32) (x7 : FVec Ideal SLin .f32) (x8 : FVec Ideal SBias .f32)
  (x9 : FVec Ideal SProj .f32)

/-- Entry (r, cc) of the product [500000, 384] · [384, 128] takes row r of the left factor and column cc of the right. -/
theorem lidx27 (r : Fin 500000) (cc : Fin 128) (k : Fin 384) : lidx_main_v27 (ix2 r cc) k = ix2 r k := by
  funext a; match a with | ⟨0, _⟩ => rfl | ⟨1, _⟩ => rfl
theorem ridx27 (r : Fin 500000) (cc : Fin 128) (k : Fin 384) : ridx_main_v27 (ix2 r cc) k = ix2 k cc := by
  funext a; match a with | ⟨0, _⟩ => rfl | ⟨1, _⟩ => rfl
theorem idx2829 (r : Fin 500000) (cc : Fin 128) : idx_main_v28 (idx_main_v29 (ix2 r cc)) = ix1 cc := by
  funext a; match a with | ⟨0, _⟩ => rfl

/-- The linear layer at (r, cc): the sum over the 384 rows of weights is the sum of its three stretches (Spec's law),
    and in stretch s the left factor is piece s of the concatenation. -/
theorem v30_apply (r : Fin 500000) (cc : Fin 128) :
    val_main_v30 (F := Ideal) x0 x1 x2 x3 x4 x5 x6 x7 x8 (ix2 r cc) = lin x0 x1 x2 x3 x4 x5 x6 x7 x8 r cc := by
  rw [val_main_v30_apply, val_main_v27_apply, val_main_v29_apply, val_main_v28_apply, idx2829, sum_three_stretches]
  unfold lin rowLin
  refine congrArg (· + x8 (ix1 cc)) (congrArg₂ (· + ·) (congrArg₂ (· + ·) ?_ ?_) ?_)
  · exact Finset.sum_congr rfl fun k _ => by rw [lidx27, ridx27, v26_apply0, v18_apply]
  · exact Finset.sum_congr rfl fun k _ => by rw [lidx27, ridx27, v26_apply1, v25_apply]
  · exact Finset.sum_congr rfl fun k _ => by rw [lidx27, ridx27, v26_apply2, v11_apply]

/-- The first result's stage at (r, cc): the activation of the linear layer. -/
theorem v31_apply (r : Fin 500000) (cc : Fin 128) :
    val_main_v31 (F := Ideal) x0 x1 x2 x3 x4 x5 x6 x7 x8 (ix2 r cc) = e1 x0 x1 x2 x3 x4 x5 x6 x7 x8 r cc := by
  rw [val_main_v31_apply, val_main_call1_v5_apply, val_main_call1_v4_apply, val_main_call1_cst_0_apply, val_main_call1_v3_apply,
    val_main_call1_v2_apply, val_main_call1_cst_apply, val_main_call1_v1_apply, val_main_call1_v0_apply, v30_apply]
  exact silu_spelt _

theorem lidx32 (r : Fin 500000) (k : Fin 128) (q : Fin 6) : lidx_main_v32 (ix2 r k) q = ix2 r q := by
  funext a; match a with | ⟨0, _⟩ => rfl | ⟨1, _⟩ => rfl
theorem ridx32 (r : Fin 500000) (k : Fin 128) (q : Fin 6) : ridx_main_v32 (ix2 r k) q = ix2 q k := by
  funext a; match a with | ⟨0, _⟩ => rfl | ⟨1, _⟩ => rfl

/-- The second result's stage at (r, cc): the second radial projection times the first result. -/
theorem v33_apply (r : Fin 500000) (cc : Fin 128) :
    val_main_v33 (F := Ideal) x0 x1 x2 x3 x4 x5 x6 x7 x8 x9 (ix2 r cc) = e2 x0 x1 x2 x3 x4 x5 x6 x7 x8 x9 r cc := by
  rw [val_main_v33_apply, val_main_v32_apply, v31_apply]
  unfold e2 radial
  refine congrArg (· * e1 x0 x1 x2 x3 x4 x5 x6 x7 x8 r cc) ?_
  exact Finset.sum_congr rfl fun q _ => by rw [lidx32, ridx32]

end Lin

variable (m : (ℓ : Loc nD τ sig) → Buf (Elt Ideal) ℓ) (c : Dev nD)

/-- The reference's first result at (r, cc). -/
theorem out0_apply (r : Fin 500000) (cc : Fin 128) :
    (Cert.ReferenceIdeal.Value.res_out0 (F := Ideal) m c : FVec Ideal S500000x128 .f32) (ix2 r cc)
      = e1 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) r cc := by
  refine (congrArg (fun t : FVec Ideal S500000x128 .f32 => t (ix2 r cc)) (val_main_v31_eq (F := Ideal) m c)).trans ?_
  exact v31_apply _ _ _ _ _ _ _ _ _ r cc

/-- The reference's second result at (r, cc). -/
theorem out1_apply (r : Fin 500000) (cc : Fin 128) :
    (Cert.ReferenceIdeal.Value.res_out1 (F := Ideal) m c : FVec Ideal S500000x128 .f32) (ix2 r cc)
      = e2 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) r cc := by
  refine (congrArg (fun t : FVec Ideal S500000x128 .f32 => t (ix2 r cc)) (val_main_v33_eq (F := Ideal) m c)).trans ?_
  exact v33_apply _ _ _ _ _ _ _ _ _ _ r cc

end Cert.ReferenceIdeal.RefValue

end
-- ==== Proof.KernelHost.lean ====
/-
  What the kernel's windows find in their arrays: the host operations before the launch, read at an index.
-/
import proofs.«419893_j6828998001281_3_alg».proof.Proof.Gen.KernelIdeal.Frame
import proofs.«419893_j6828998001281_3_alg».proof.Proof.Spec
import Idealize.ShloMosaic.Lib.ValueIdx
import Idealize.ShloMosaic.Lib.Pipeline.Value
import Idealize.ShloMosaic.Lib.StableHlo.Run
import Idealize.ShloMosaic.Lib.StableHlo.Predicate
import Idealize.ShloMosaic.Lib.KernelVsHost

noncomputable section

namespace Cert.KernelIdeal.HostValue

open Idealize.ShloMosaic Idealize.ShloMosaic.TcCoe Idealize.ShloMosaic.ValueIdx Idealize.SL.Sem Cert.KernelIdeal Cert.KernelIdeal.Gen Cert.EdgeGate

variable (m : (ℓ : Loc nD τ sig) → Buf (Elt Ideal) ℓ) (c : Dev nD)

/-- Opens a window's array as the composition of the operations that ran before the launch. -/
local macro "open_window" : tactic =>
  `(tactic| (dsimp only [Gen.V, Gen.V0]
             simp only [Gen.hostOps0, Gen.hostOps0_1, Gen.hostOps0_2, Gen.hostOps0_3, Gen.hostOps0_4, Gen.hostOps0_5, Gen.hostOps0_6,
               Gen.hostOps0_7, List.flatten_cons, List.flatten_nil, List.append_nil, List.cons_append, List.nil_append]
             after_results
             first | done | rfl))

/-- The float padding value: the zero word converted is the extended real 0. -/
theorem padValue_zero (i : S_.Idx) :
    (sitofp (F := Ideal) .f32 (constantI S_ 32 0#32) : FVec Ideal S_ .f32) i = (0 : EReal) := by
  show ((((0#32 : BitVec 32).toInt : ℤ) : ℝ) : EReal) = 0
  rw [show (0#32 : BitVec 32).toInt = 0 from rfl, Int.cast_zero, EReal.coe_zero]

/-! ## The class words of the edges' end nodes: wrap the end-node words, take the class words there, append 3808 zero words -/

/-- The rank-1 index at a position, in its two spellings. -/
theorem ofFin_eq_ix1 {n : Nat} (p : Fin n) : (Shape.Idx.ofFin p : (⟨1, ![n]⟩ : Shape).Idx) = ix1 p := by
  funext a; match a with | ⟨0, _⟩ => rfl

/-- An edge vector's end-node words wrapped: a negative word has the number of nodes added. -/
def wrapVec (e : IVec S500000 32) : IVec S500000 32 :=
  select (cmpi .slt e (broadcastInDim S500000 ![] Facts₀.bcast_S_S500000 (constantI S_ 32 0#32)))
    (addi e (broadcastInDim S500000 ![] Facts₀.bcast_S_S500000 (constantI S_ 32 50000#32))) e

/-- The class words taken at an edge vector's wrapped end nodes, with 3808 zero words appended. -/
def classVec (x : IVec S50000 32) (e : IVec S500000 32) : IVec S503808 32 :=
  pad S503808 ![0] ![3808] ![0]
    (Host.gather gather_S50000_S500000x1_S500000_n_0_n_n_0_1_1 x
      (broadcastInDim S500000x1 ![0] Facts₀.bcast_S500000_S500000x1_0 (wrapVec e)))
    (id (constantI S_ 32 0#32) : IVec S_ 32) Facts₀.pads_S500000_S503808_038080 Facts₀.h_S_

/-- At each edge the wrapped vector holds the wrapped word: compare, add and select act entry by entry, and a
    broadcast scalar reads the same everywhere. -/
theorem wrapVec_apply (e : IVec S500000 32) (r : Fin 500000) : wrapVec e (ix1 r) = wrap 50000#32 (e (ix1 r)) := rfl

/-- The take at edge r reads the class table at the position the wrapped word names: the word read signed and
    clamped into the table. -/
theorem take_apply (x : IVec S50000 32) (e : IVec S500000 32) (r : Fin 500000) :
    Host.gather gather_S50000_S500000x1_S500000_n_0_n_n_0_1_1 x
      (broadcastInDim S500000x1 ![0] Facts₀.bcast_S500000_S500000x1_0 (wrapVec e)) (ix1 r) = classWord x e r := by
  have hidx : (broadcastInDim S500000x1 ![0] Facts₀.bcast_S500000_S500000x1_0 (wrapVec e)) (StableHlo.Predicate.ixP r)
      = wrap 50000#32 (e (ix1 r)) :=
    (StableHlo.Predicate.bcast_col1 _ _ r).trans ((congrArg (wrapVec e) (ofFin_eq_ix1 r)).trans (wrapVec_apply e r))
  refine (congrArg _ (ofFin_eq_ix1 r).symm).trans ?_
  refine (StableHlo.Predicate.gather_take gather_S50000_S500000x1_S500000_n_0_n_n_0_1_1 rfl rfl rfl rfl x _ r (by decide)).trans ?_
  unfold classWord nodeOf pos
  refine congrArg x ?_
  funext a
  match a with
  | ⟨0, _⟩ => exact Fin.ext (congrArg (fun w : BitVec 32 => min w.toInt.toNat (50000 - 1)) hidx)

/-- The padded vector at a position: an edge's class word, or the zero word past the last edge. -/
theorem classVec_apply (x : IVec S50000 32) (e : IVec S500000 32) (P : Fin 503808) :
    classVec x e (ix1 P) = if h : P.val < 500000 then classWord x e ⟨P.val, h⟩ else 0#32 := by
  unfold classVec
  by_cases h : P.val < 500000
  · rw [dif_pos h]
    refine (pad_apply_of_inside _ _ _ _ _ _ _ (ix1 P) (ix1 ⟨P.val, h⟩) fun a => match a with
      | ⟨0, _⟩ => by show P.val = 0 + P.val * (0 + 1); omega).trans ?_
    exact take_apply x e ⟨P.val, h⟩
  · rw [dif_neg h]
    refine (pad_apply_of_not_inside _ _ _ _ _ _ _ (ix1 P) (0 : Fin 1) ?_).trans rfl
    show ¬(0 ≤ P.val ∧ (P.val - 0) % (0 + 1) = 0 ∧ (P.val - 0) / (0 + 1) < 500000)
    omega

theorem open_class_i :
    (V m c main_v24 : IVec S503808 32)
      = classVec (m ((c.tc : Thread nD τ).loc main_arg0)) (m ((c.tc : Thread nD τ).loc main_arg2)) := by
  open_window
set_option maxHeartbeats 400000 in
theorem open_class_j :
    (V m c main_v25 : IVec S503808 32)
      = classVec (m ((c.tc : Thread nD τ).loc main_arg0)) (m ((c.tc : Thread nD τ).loc main_arg3)) := by
  open_window

/-- The class words of the edges' first end nodes, padded with zero words to 503808 rows. -/
theorem V_class_i (P : Fin 503808) :
    (V m c main_v24 : IVec S503808 32) (ix1 P)
      = if h : P.val < 500000 then classWord (m ((c.tc : Thread nD τ).loc main_arg0)) (m ((c.tc : Thread nD τ).loc main_arg2)) ⟨P.val, h⟩ else 0#32 := by
  exact (congrFun (open_class_i m c) (ix1 P)).trans (classVec_apply _ _ P)

/-- The class words of the edges' second end nodes, padded likewise. -/
theorem V_class_j (P : Fin 503808) :
    (V m c main_v25 : IVec S503808 32) (ix1 P)
      = if h : P.val < 500000 then classWord (m ((c.tc : Thread nD τ).loc main_arg0)) (m ((c.tc : Thread nD τ).loc main_arg3)) ⟨P.val, h⟩ else 0#32 := by
  exact (congrFun (open_class_j m c) (ix1 P)).trans (classVec_apply _ _ P)

/-! ## The radial features: 3808 zero rows appended -/

theorem open_rbf :
    (V m c main_v26 : FVec Ideal S503808x6 .f32)
      = (pad S503808x6 ![0, 0] ![3808, 0] ![0, 0] (m ((c.tc : Thread nD τ).loc main_arg1) : FVec Ideal S500000x6 .f32)
            (sitofp (F := Ideal) .f32 (constantI S_ 32 0#32) : FVec Ideal S_ .f32)
            Facts₀.pads_S500000x6_S503808x6_038080_000 Facts₀.h_S_ : FVec Ideal S503808x6 .f32) := by
  open_window

/-- The radial features, padded with zero rows. -/
theorem V_rbf (P : Fin 503808) (q : Fin 6) :
    (V m c main_v26 : FVec Ideal S503808x6 .f32) (ix2 P q)
      = if h : P.val < 500000 then (m ((c.tc : Thread nD τ).loc main_arg1) : FVec Ideal S500000x6 .f32) (ix2 ⟨P.val, h⟩ q) else (0 : EReal) := by
  refine (congrFun (open_rbf m c) (ix2 P q)).trans ?_
  by_cases h : P.val < 500000
  · rw [dif_pos h]
    exact pad_apply_of_inside _ _ _ _ _ _ _ (ix2 P q) (ix2 ⟨P.val, h⟩ q) fun a => match a with
      | ⟨0, _⟩ => by show P.val = 0 + P.val * (0 + 1); omega
      | ⟨1, _⟩ => by show q.val = 0 + q.val * (0 + 1); omega
  · rw [dif_neg h]
    refine (pad_apply_of_not_inside _ _ _ _ _ _ _ (ix2 P q) (0 : Fin 2) ?_).trans (padValue_zero _)
    show ¬(0 ≤ P.val ∧ (P.val - 0) % (0 + 1) = 0 ∧ (P.val - 0) / (0 + 1) < 500000)
    omega

/-! ## The embedding table: 28 zero rows appended, narrowed -/

theorem open_table :
    (V m c main_v15 : FVec Ideal S128x128 .bf16)
      = (truncf (F := Ideal) .bf16
          (pad S128x128 ![0, 0] ![28, 0] ![0, 0] (m ((c.tc : Thread nD τ).loc main_arg4) : FVec Ideal S100x128 .f32)
            (sitofp (F := Ideal) .f32 (constantI S_ 32 0#32) : FVec Ideal S_ .f32)
            Facts₀.pads_S100x128_S128x128_0280_000 Facts₀.h_S_ : FVec Ideal S128x128 .f32)
          Facts₀.bitsLt_bf16_f32 : FVec Ideal S128x128 .bf16) := by
  open_window

/-- The embedding table, padded with zero rows to 128 rows. -/
theorem V_table (k' k : Fin 128) :
    (V m c main_v15 : FVec Ideal S128x128 .bf16) (ix2 k' k)
      = if h : k'.val < 100 then (m ((c.tc : Thread nD τ).loc main_arg4) : FVec Ideal S100x128 .f32) (ix2 ⟨k'.val, h⟩ k) else (0 : EReal) := by
  refine (congrFun (open_table m c) (ix2 k' k)).trans ?_
  refine (truncf_apply (φ := .f32) (ψ := .bf16) _ Facts₀.bitsLt_bf16_f32 _).trans ?_
  by_cases h : k'.val < 100
  · -- a row of the table itself
    rw [dif_pos h]
    exact pad_apply_of_inside _ _ _ _ _ _ _ (ix2 k' k) (ix2 ⟨k'.val, h⟩ k) fun a => match a with
      | ⟨0, _⟩ => by show k'.val = 0 + k'.val * (0 + 1); omega
      | ⟨1, _⟩ => by show k.val = 0 + k.val * (0 + 1); omega
  · -- an appended row: the padding value
    rw [dif_neg h]
    refine (pad_apply_of_not_inside _ _ _ _ _ _ _ (ix2 k' k) (0 : Fin 2) ?_).trans (padValue_zero _)
    show ¬(0 ≤ k'.val ∧ (k'.val - 0) % (0 + 1) = 0 ∧ (k'.val - 0) / (0 + 1) < 100)
    omega

/-! ## The two radial weight matrices laid side by side, narrowed -/

set_option maxHeartbeats 400000 in
theorem open_wcat :
    (V m c main_v23 : FVec Ideal S6x256 .bf16)
      = (truncf (F := Ideal) .bf16
          (concatenate S6x256 1 [⟨S6x128, (m ((c.tc : Thread nD τ).loc main_arg5) : FVec Ideal S6x128 .f32)⟩,
              ⟨S6x128, (m ((c.tc : Thread nD τ).loc main_arg9) : FVec Ideal S6x128 .f32)⟩]
            Facts₀.concatenates_S6x128_S6x128_S6x256_d1 : FVec Ideal S6x256 .f32)
          Facts₀.bitsLt_bf16_f32 : FVec Ideal S6x256 .bf16) := by
  open_window

/-- The two radial weight matrices side by side. -/
theorem V_wcat (q : Fin 6) (d : Fin 256) :
    (V m c main_v23 : FVec Ideal S6x256 .bf16) (ix2 q d)
      = if h : d.val < 128 then (m ((c.tc : Thread nD τ).loc main_arg5) : FVec Ideal S6x128 .f32) (ix2 q ⟨d.val, h⟩)
        else (m ((c.tc : Thread nD τ).loc main_arg9) : FVec Ideal S6x128 .f32) (ix2 q ⟨d.val - 128, by omega⟩) := by
  refine (congrFun (open_wcat m c) (ix2 q d)).trans ?_
  refine (truncf_apply (φ := .f32) (ψ := .bf16) _ Facts₀.bitsLt_bf16_f32 _).trans ?_
  by_cases h : d.val < 128
  · -- a column of the first matrix
    rw [dif_pos h]
    exact concatenate_pair_apply_left (s₁ := S6x128) (s₂ := S6x128) (1 : Fin 2) _ _ _ (ix2 q d) rfl (ix2 q ⟨d.val, h⟩) fun b => match b with
      | ⟨0, _⟩ => rfl
      | ⟨1, _⟩ => rfl
  · -- a column of the second, the first one's 128 columns less
    rw [dif_neg h]
    exact concatenate_pair_apply_right (s₁ := S6x128) (s₂ := S6x128) (1 : Fin 2) _ _ _ (ix2 q d) rfl rfl (ix2 q ⟨d.val - 128, by omega⟩)
      (fun b => match b with
        | ⟨0, _⟩ => fun _ => rfl
        | ⟨1, _⟩ => fun hb => absurd rfl hb)
      (by show d.val - 128 + 128 = d.val; omega)

/-! ## The linear layer's weights: a slice of 128 rows, narrowed -/

theorem open_w0 :
    (V m c main_v17 : FVec Ideal S128x128 .bf16)
      = (truncf (F := Ideal) .bf16 (extractStridedSlice S128x128 ![0, 0] (m ((c.tc : Thread nD τ).loc main_arg7) : FVec Ideal S384x128 .f32) Facts₀.slices_S384x128_S128x128_0_0) Facts₀.bitsLt_bf16_f32 : FVec Ideal S128x128 .bf16) := by
  open_window
theorem open_w1 :
    (V m c main_v19 : FVec Ideal S128x128 .bf16)
      = (truncf (F := Ideal) .bf16 (extractStridedSlice S128x128 ![128, 0] (m ((c.tc : Thread nD τ).loc main_arg7) : FVec Ideal S384x128 .f32) Facts₀.slices_S384x128_S128x128_128_0) Facts₀.bitsLt_bf16_f32 : FVec Ideal S128x128 .bf16) := by
  open_window
theorem open_w2 :
    (V m c main_v21 : FVec Ideal S128x128 .bf16)
      = (truncf (F := Ideal) .bf16 (extractStridedSlice S128x128 ![256, 0] (m ((c.tc : Thread nD τ).loc main_arg7) : FVec Ideal S384x128 .f32) Facts₀.slices_S384x128_S128x128_256_0) Facts₀.bitsLt_bf16_f32 : FVec Ideal S128x128 .bf16) := by
  open_window

/-- The three stretches of the linear layer's weights. -/
theorem V_w0 (k cc : Fin 128) :
    (V m c main_v17 : FVec Ideal S128x128 .bf16) (ix2 k cc) = (m ((c.tc : Thread nD τ).loc main_arg7) : FVec Ideal S384x128 .f32) (ix2 (row0 k) cc) := by
  refine (congrFun (open_w0 m c) (ix2 k cc)).trans ?_
  -- narrowing is the identity on extended reals; row k of the slice at offset 0 is row 0 + k
  refine (truncf_apply (φ := .f32) (ψ := .bf16) _ Facts₀.bitsLt_bf16_f32 _).trans ?_
  exact extractStridedSlice_apply _ _ _ (ix2 k cc) (ix2 (row0 k) cc) fun a => match a with
    | ⟨0, _⟩ => by show k.val = 0 + k.val; omega
    | ⟨1, _⟩ => by show cc.val = 0 + cc.val; omega
theorem V_w1 (k cc : Fin 128) :
    (V m c main_v19 : FVec Ideal S128x128 .bf16) (ix2 k cc) = (m ((c.tc : Thread nD τ).loc main_arg7) : FVec Ideal S384x128 .f32) (ix2 (row1 k) cc) := by
  refine (congrFun (open_w1 m c) (ix2 k cc)).trans ?_
  refine (truncf_apply (φ := .f32) (ψ := .bf16) _ Facts₀.bitsLt_bf16_f32 _).trans ?_
  exact extractStridedSlice_apply _ _ _ (ix2 k cc) (ix2 (row1 k) cc) fun a => match a with
    | ⟨0, _⟩ => by show 128 + k.val = 128 + k.val; rfl
    | ⟨1, _⟩ => by show cc.val = 0 + cc.val; omega
theorem V_w2 (k cc : Fin 128) :
    (V m c main_v21 : FVec Ideal S128x128 .bf16) (ix2 k cc) = (m ((c.tc : Thread nD τ).loc main_arg7) : FVec Ideal S384x128 .f32) (ix2 (row2 k) cc) := by
  refine (congrFun (open_w2 m c) (ix2 k cc)).trans ?_
  refine (truncf_apply (φ := .f32) (ψ := .bf16) _ Facts₀.bitsLt_bf16_f32 _).trans ?_
  exact extractStridedSlice_apply _ _ _ (ix2 k cc) (ix2 (row2 k) cc) fun a => match a with
    | ⟨0, _⟩ => by show 256 + k.val = 256 + k.val; rfl
    | ⟨1, _⟩ => by show cc.val = 0 + cc.val; omega

end Cert.KernelIdeal.HostValue

end
-- ==== Proof.KernelBlocks.lean ====
/-
  The kernel's blocks, read at an index.

  The launch runs 123 points; point t stages rows 4096 t … 4096 t + 4095 of the padded class words, of the padded radial
  features and of both outputs, and the whole of every weight array. Here: the staged arrays by name, the two padded
  results as ONE function each of those arrays (padOut1, padOut2), and each input block's entry as an entry of its array.
-/
import proofs.«419893_j6828998001281_3_alg».proof.Proof.Gen.KernelIdeal.Frame
import proofs.«419893_j6828998001281_3_alg».proof.Proof.Spec
import Idealize.ShloMosaic.Lib.ValueIdx
import Idealize.ShloMosaic.Lib.Pipeline.Value
import Idealize.ShloMosaic.Lib.StableHlo.Run

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.EdgeGate

variable (m : (ℓ : Loc nD τ sig) → Buf (Elt Ideal) ℓ) (ρ : Dev nD → PrngReg)

/-! ## The arrays the windows stage, by their literal types -/

abbrev Aci (c : Dev nD) : IVec S503808 32 := V m c main_v24
abbrev Acj (c : Dev nD) : IVec S503808 32 := V m c main_v25
abbrev Arbf (c : Dev nD) : FVec Ideal S503808x6 .f32 := V m c main_v26
abbrev Atab (c : Dev nD) : FVec Ideal S128x128 .bf16 := V m c main_v15
abbrev Awcat (c : Dev nD) : FVec Ideal S6x256 .bf16 := V m c main_v23
abbrev Ab0 (c : Dev nD) : FVec Ideal S128 .f32 := V m c main_arg6
abbrev Aw0 (c : Dev nD) : FVec Ideal S128x128 .bf16 := V m c main_v17
abbrev Aw1 (c : Dev nD) : FVec Ideal S128x128 .bf16 := V m c main_v19
abbrev Aw2 (c : Dev nD) : FVec Ideal S128x128 .bf16 := V m c main_v21
abbrev Abl (c : Dev nD) : FVec Ideal S128 .f32 := V m c main_arg8

/-- Row P, column cc of the padded first result before the last silu, from the staged arrays. -/
def padLin (c : Dev nD) (P : Fin 503808) (cc : Fin 128) : EReal :=
  rowLin (fun k => Atab m c (ix2 (row128 (Aci m c (ix1 P))) k)) (fun k => Atab m c (ix2 (row128 (Acj m c (ix1 P))) k))
    (fun k => silu ((∑ q : Fin 6, Arbf m c (ix2 P q) * Awcat m c (ix2 q (colA k))) + Ab0 m c (ix1 k)))
    (fun k => Aw0 m c (ix2 k cc)) (fun k => Aw1 m c (ix2 k cc)) (fun k => Aw2 m c (ix2 k cc)) (Abl m c (ix1 cc))

/-- The padded first result. -/
def padOut1 (c : Dev nD) : FVec Ideal S503808x128 .f32 := fun j => silu (padLin m c (j 0) (j 1))

/-- The padded second result. -/
def padOut2 (c : Dev nD) : FVec Ideal S503808x128 .f32 := fun j =>
  (∑ q : Fin 6, Arbf m c (ix2 (j 0) q) * Awcat m c (ix2 q (colB (j 1)))) * silu (padLin m c (j 0) (j 1))

/-! ## The grid -/

theorem N123 : cfg0.N = 123 := N_0

/-- The row of the padded arrays that row p of point t's blocks is. -/
def rowAt (t : Fin cfg0.N) (p : Fin 4096) : Fin 503808 := ⟨4096 * t.val + p.val, by have h : t.val < 123 := lt_of_lt_of_eq t.isLt N123; have := p.isLt; omega⟩

/-- The printed index maps over the grid: the row-blocked windows sit at block t, the whole-array windows at block 0. -/
theorem idx_rows : ∀ t : Fin cfg0.N, win0_0.index t (0 : Fin 1) = t.val ∧ win0_1.index t (0 : Fin 1) = t.val
    ∧ win0_2.index t (0 : Fin 2) = t.val ∧ win0_2.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

theorem idx_whole : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 1) = 0 :=
  (by decide +kernel : ∀ t : Fin grid0.N, _)

/-! ## Each input block, read at an index -/

theorem blk0 (c : Dev nD) (t : Fin cfg0.N) (p : Fin 4096) :
    (iblk m c 0 t : Vec Ideal S4096 .i32) (ix1 p) = Aci m c (ix1 (rowAt t p)) := by
  obtain ⟨e0, -⟩ := idx_rows t
  unfold iblk
  rw [View.read_apply]
  show V m c main_v24 _ = V m c main_v24 _
  congr 1
  funext a; apply Fin.ext
  match a with
  | ⟨0, _⟩ => show win0_0.index t (0 : Fin 1) * 4096 + 1 * p.val = 4096 * t.val + p.val; rw [e0]; omega

theorem blk1 (c : Dev nD) (t : Fin cfg0.N) (p : Fin 4096) :
    (iblk m c 1 t : Vec Ideal S4096 .i32) (ix1 p) = Acj m c (ix1 (rowAt t p)) := by
  obtain ⟨-, e0, -⟩ := idx_rows t
  unfold iblk
  rw [View.read_apply]
  show V m c main_v25 _ = V m c main_v25 _
  congr 1
  funext a; apply Fin.ext
  match a with
  | ⟨0, _⟩ => show win0_1.index t (0 : Fin 1) * 4096 + 1 * p.val = 4096 * t.val + p.val; rw [e0]; omega

theorem blk2 (c : Dev nD) (t : Fin cfg0.N) (p : Fin 4096) (q : Fin 6) :
    (iblk m c 2 t : Vec Ideal S4096x6 .f32) (ix2 p q) = Arbf m c (ix2 (rowAt t p) q) := by
  obtain ⟨-, -, e0, e1, -⟩ := idx_rows t
  unfold iblk
  rw [View.read_apply]
  show V m c main_v26 _ = V m c main_v26 _
  congr 1
  funext a; apply Fin.ext
  match a with
  | ⟨0, _⟩ => show win0_2.index t (0 : Fin 2) * 4096 + 1 * p.val = 4096 * t.val + p.val; rw [e0]; omega
  | ⟨1, _⟩ => show win0_2.index t (1 : Fin 2) * 6 + 1 * q.val = q.val; rw [e1]; omega

theorem blk3 (c : Dev nD) (t : Fin cfg0.N) (a b : Fin 128) :
    (iblk m c 3 t : Vec Ideal S128x128 .bf16) (ix2 a b) = Atab m c (ix2 a b) := by
  obtain ⟨e0, e1, -⟩ := idx_whole t
  unfold iblk
  rw [View.read_apply]
  show V m c main_v15 _ = V m c main_v15 _
  congr 1
  funext d; apply Fin.ext
  match d with
  | ⟨0, _⟩ => show win0_3.index t (0 : Fin 2) * 128 + 1 * a.val = a.val; rw [e0]; omega
  | ⟨1, _⟩ => show win0_3.index t (1 : Fin 2) * 128 + 1 * b.val = b.val; rw [e1]; omega

theorem blk4 (c : Dev nD) (t : Fin cfg0.N) (a : Fin 6) (b : Fin 256) :
    (iblk m c 4 t : Vec Ideal S6x256 .bf16) (ix2 a b) = Awcat m c (ix2 a b) := by
  obtain ⟨-, -, e0, e1, -⟩ := idx_whole t
  unfold iblk
  rw [View.read_apply]
  show V m c main_v23 _ = V m c main_v23 _
  congr 1
  funext d; apply Fin.ext
  match d with
  | ⟨0, _⟩ => show win0_4.index t (0 : Fin 2) * 6 + 1 * a.val = a.val; rw [e0]; omega
  | ⟨1, _⟩ => show win0_4.index t (1 : Fin 2) * 256 + 1 * b.val = b.val; rw [e1]; omega

theorem blk5 (c : Dev nD) (t : Fin cfg0.N) (a : Fin 128) :
    (iblk m c 5 t : Vec Ideal S128 .f32) (ix1 a) = Ab0 m c (ix1 a) := by
  obtain ⟨-, -, -, -, e0, -⟩ := idx_whole t
  unfold iblk
  rw [View.read_apply]
  show V m c main_arg6 _ = V m c main_arg6 _
  congr 1
  funext d; apply Fin.ext
  match d with
  | ⟨0, _⟩ => show win0_5.index t (0 : Fin 1) * 128 + 1 * a.val = a.val; rw [e0]; omega

theorem blk6 (c : Dev nD) (t : Fin cfg0.N) (a b : Fin 128) :
    (iblk m c 6 t : Vec Ideal S128x128 .bf16) (ix2 a b) = Aw0 m c (ix2 a b) := by
  obtain ⟨-, -, -, -, -, e0, e1, -⟩ := idx_whole t
  unfold iblk
  rw [View.read_apply]
  show V m c main_v17 _ = V m c main_v17 _
  congr 1
  funext d; apply Fin.ext
  match d with
  | ⟨0, _⟩ => show win0_6.index t (0 : Fin 2) * 128 + 1 * a.val = a.val; rw [e0]; omega
  | ⟨1, _⟩ => show win0_6.index t (1 : Fin 2) * 128 + 1 * b.val = b.val; rw [e1]; omega

theorem blk7 (c : Dev nD) (t : Fin cfg0.N) (a b : Fin 128) :
    (iblk m c 7 t : Vec Ideal S128x128 .bf16) (ix2 a b) = Aw1 m c (ix2 a b) := by
  obtain ⟨-, -, -, -, -, -, -, e0, e1, -⟩ := idx_whole t
  unfold iblk
  rw [View.read_apply]
  show V m c main_v19 _ = V m c main_v19 _
  congr 1
  funext d; apply Fin.ext
  match d with
  | ⟨0, _⟩ => show win0_7.index t (0 : Fin 2) * 128 + 1 * a.val = a.val; rw [e0]; omega
  | ⟨1, _⟩ => show win0_7.index t (1 : Fin 2) * 128 + 1 * b.val = b.val; rw [e1]; omega

theorem blk8 (c : Dev nD) (t : Fin cfg0.N) (a b : Fin 128) :
    (iblk m c 8 t : Vec Ideal S128x128 .bf16) (ix2 a b) = Aw2 m c (ix2 a b) := by
  obtain ⟨-, -, -, -, -, -, -, -, -, e0, e1, -⟩ := idx_whole t
  unfold iblk
  rw [View.read_apply]
  show V m c main_v21 _ = V m c main_v21 _
  congr 1
  funext d; apply Fin.ext
  match d with
  | ⟨0, _⟩ => show win0_8.index t (0 : Fin 2) * 128 + 1 * a.val = a.val; rw [e0]; omega
  | ⟨1, _⟩ => show win0_8.index t (1 : Fin 2) * 128 + 1 * b.val = b.val; rw [e1]; omega

theorem blk9 (c : Dev nD) (t : Fin cfg0.N) (a : Fin 128) :
    (iblk m c 9 t : Vec Ideal S128 .f32) (ix1 a) = Abl m c (ix1 a) := by
  obtain ⟨-, -, -, -, -, -, -, -, -, -, -, e0⟩ := idx_whole t
  unfold iblk
  rw [View.read_apply]
  show V m c main_arg8 _ = V m c main_arg8 _
  congr 1
  funext d; apply Fin.ext
  match d with
  | ⟨0, _⟩ => show win0_9.index t (0 : Fin 1) * 128 + 1 * a.val = a.val; rw [e0]; omega

/-- Where entry (p, cc) of point t's output block lies in the padded result. -/
theorem emb10 (t : Fin cfg0.N) (y : ((cfg0.win 10).xblock (grid0.coords t)).Idx) (p : Fin 4096) (cc : Fin 128)
    (h0 : (y 0).val = p.val) (h1 : (y 1).val = cc.val) :
    ((cfg0.win 10).blk t).view.emb y = (ix2 (rowAt t p) cc : S503808x128.Idx) := by
  obtain ⟨-, -, -, -, e0, e1, -⟩ := idx_rows t
  funext d; apply Fin.ext
  match d with
  | ⟨0, _⟩ => show win0_10.index t (0 : Fin 2) * 4096 + 1 * (y 0).val = 4096 * t.val + p.val; rw [e0, h0]; omega
  | ⟨1, _⟩ => show win0_10.index t (1 : Fin 2) * 128 + 1 * (y 1).val = cc.val; rw [e1, h1]; omega

theorem emb11 (t : Fin cfg0.N) (y : ((cfg0.win 11).xblock (grid0.coords t)).Idx) (p : Fin 4096) (cc : Fin 128)
    (h0 : (y 0).val = p.val) (h1 : (y 1).val = cc.val) :
    ((cfg0.win 11).blk t).view.emb y = (ix2 (rowAt t p) cc : S503808x128.Idx) := by
  obtain ⟨-, -, -, -, -, -, e0, e1⟩ := idx_rows t
  funext d; apply Fin.ext
  match d with
  | ⟨0, _⟩ => show win0_11.index t (0 : Fin 2) * 4096 + 1 * (y 0).val = 4096 * t.val + p.val; rw [e0, h0]; omega
  | ⟨1, _⟩ => show win0_11.index t (1 : Fin 2) * 128 + 1 * (y 1).val = cc.val; rw [e1, h1]; omega

/-- Every row of the padded results is some point's: the blocks of 4096 rows tile the 503808 rows. -/
theorem mem_blk10 (t : Fin cfg0.N) (i : S503808x128.Idx) :
    i ∈ ((cfg0.win 10).blk t).view.set ↔ ∀ a : Fin 2, win0_10.index t a * S4096x128.size a ≤ (i a).val ∧ (i a).val < win0_10.index t a * S4096x128.size a + S4096x128.size a := by
  show i ∈ ((View.whole main_v27_0).slice (win0_10.rect t)).set ↔ _
  rw [View.set_slice_whole, Rect.mem_set_unit]
  exact Iff.rfl

theorem mem_blk11 (t : Fin cfg0.N) (i : S503808x128.Idx) :
    i ∈ ((cfg0.win 11).blk t).view.set ↔ ∀ a : Fin 2, win0_11.index t a * S4096x128.size a ≤ (i a).val ∧ (i a).val < win0_11.index t a * S4096x128.size a + S4096x128.size a := by
  show i ∈ ((View.whole main_v27_1).slice (win0_11.rect t)).set ↔ _
  rw [View.set_slice_whole, Rect.mem_set_unit]
  exact Iff.rfl

theorem cover10 (i : S503808x128.Idx) :
    ∃ t : Fin cfg0.N, (cfg0.win 10).flush t = true ∧ i ∈ ((cfg0.win 10).blk t).view.set := by
  have hi0 : (i 0).val < 503808 := (i 0).isLt
  have hi1 : (i 1).val < 128 := (i 1).isLt
  have hN : (i 0).val / 4096 < cfg0.N := by rw [N123]; omega
  refine ⟨⟨(i 0).val / 4096, hN⟩, flush0_10 _, ?_⟩
  rw [mem_blk10]
  obtain ⟨-, -, -, -, e0, e1, -⟩ := idx_rows ⟨(i 0).val / 4096, hN⟩
  intro a
  match a with
  | ⟨0, _⟩ =>
    show win0_10.index ⟨(i 0).val / 4096, hN⟩ (0 : Fin 2) * 4096 ≤ (i 0).val ∧ (i 0).val < win0_10.index ⟨(i 0).val / 4096, hN⟩ (0 : Fin 2) * 4096 + 4096
    rw [e0]; show (i 0).val / 4096 * 4096 ≤ (i 0).val ∧ (i 0).val < (i 0).val / 4096 * 4096 + 4096; omega
  | ⟨1, _⟩ =>
    show win0_10.index ⟨(i 0).val / 4096, hN⟩ (1 : Fin 2) * 128 ≤ (i 1).val ∧ (i 1).val < win0_10.index ⟨(i 0).val / 4096, hN⟩ (1 : Fin 2) * 128 + 128
    rw [e1]; omega

theorem cover11 (i : S503808x128.Idx) :
    ∃ t : Fin cfg0.N, (cfg0.win 11).flush t = true ∧ i ∈ ((cfg0.win 11).blk t).view.set := by
  have hi0 : (i 0).val < 503808 := (i 0).isLt
  have hi1 : (i 1).val < 128 := (i 1).isLt
  have hN : (i 0).val / 4096 < cfg0.N := by rw [N123]; omega
  refine ⟨⟨(i 0).val / 4096, hN⟩, flush0_11 _, ?_⟩
  rw [mem_blk11]
  obtain ⟨-, -, -, -, -, -, e0, e1⟩ := idx_rows ⟨(i 0).val / 4096, hN⟩
  intro a
  match a with
  | ⟨0, _⟩ =>
    show win0_11.index ⟨(i 0).val / 4096, hN⟩ (0 : Fin 2) * 4096 ≤ (i 0).val ∧ (i 0).val < win0_11.index ⟨(i 0).val / 4096, hN⟩ (0 : Fin 2) * 4096 + 4096
    rw [e0]; show (i 0).val / 4096 * 4096 ≤ (i 0).val ∧ (i 0).val < (i 0).val / 4096 * 4096 + 4096; omega
  | ⟨1, _⟩ =>
    show win0_11.index ⟨(i 0).val / 4096, hN⟩ (1 : Fin 2) * 128 ≤ (i 1).val ∧ (i 1).val < win0_11.index ⟨(i 0).val / 4096, hN⟩ (1 : Fin 2) * 128 + 128
    rw [e1]; omega

end Cert.KernelIdeal.Hand

end
-- ==== Proof.KernelBody.lean ====
/-
  One entry of what the kernel body leaves in each output block, at the ideal values.

  Row p of a block carries two class words w_i, w_j, six radial values and, with them, the shared tables. The body
  builds, for each word w, the row of indicators [w = k] over the 128 column numbers k and multiplies it into the
  128 × 128 embedding table: Σ_k' [w = k'] · E[k', k] = E[w, k] when w < 128 (a sum against the indicator of one
  position is the term there; 0 · y = 0 for every extended real y). The radial row times the two radial weight
  matrices laid side by side gives 256 columns: the first 128, plus a bias, through silu, are the gate row; the last
  128 are kept. The three rows (two embedding rows and the gate row) are multiplied into three 128 × 128 weight
  matrices, the products added in the order (first + second) + third, a bias added, and silu applied: the first
  result. The kept radial columns times it: the second result. A change of float format is the identity on the
  extended reals.
-/
import proofs.«419893_j6828998001281_3_alg».proof.Proof.Gen.KernelIdeal.Frame
import proofs.«419893_j6828998001281_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.EdgeGate

/-- The gated first radial projection of row p of a block, column k. -/
def blockGate (x2 : Vec Ideal S4096x6 .f32) (x4 : Vec Ideal S6x256 .bf16) (x5 : Vec Ideal S128 .f32) (p : Fin 4096) (k : Fin 128) : EReal :=
  silu ((∑ q : Fin 6, x2 (ix2 p q) * x4 (ix2 q (colA k))) + x5 (ix1 k))

/-- Row p, column cc of the first result's block, before the last silu. -/
def blockLin (x0 x1 : Vec Ideal S4096 .i32) (x2 : Vec Ideal S4096x6 .f32) (x3 : Vec Ideal S128x128 .bf16) (x4 : Vec Ideal S6x256 .bf16)
    (x5 : Vec Ideal S128 .f32) (x6 x7 x8 : Vec Ideal S128x128 .bf16) (x9 : Vec Ideal S128 .f32) (p : Fin 4096) (cc : Fin 128) : EReal :=
  rowLin (fun k => x3 (ix2 (row128 (x0 (ix1 p))) k)) (fun k => x3 (ix2 (row128 (x1 (ix1 p))) k)) (fun k => blockGate x2 x4 x5 p k)
    (fun k => x6 (ix2 k cc)) (fun k => x7 (ix2 k cc)) (fun k => x8 (ix2 k cc)) (x9 (ix1 cc))

/-! ## The two matrix products at an entry -/

/-- A [4096, 128] block times a [128, 128] matrix: the left operand's row coordinate is the result's row. -/
theorem lhsT_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl
/-- A [4096, 128] block times a [128, 128] matrix: the left operand's column coordinate is the summation index. -/
theorem lhsT_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
/-- A [4096, 128] block times a [128, 128] matrix: the right operand's row coordinate is the summation index. -/
theorem rhsT_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
/-- A [4096, 128] block times a [128, 128] matrix: the right operand's column coordinate is the result's column. -/
theorem rhsT_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- A [4096, 128] block times a [128, 128] matrix into the zero accumulator: entry (a, b) is the sum over k of left (a, k) times right (k, b). -/
theorem matmulT_apply (A : FVec Ideal S4096x128 .bf16) (B : FVec Ideal S128x128 .bf16) (a : Fin 4096) (b : Fin 128) :
    matmul dot_S4096x128_S128x128_S4096x128_1_0_0_1_n_n none A B (constant S4096x128 .f32 0x00000000#32) (ix2 a b)
      = ∑ k : Fin 128, A (ix2 a k) * B (ix2 k b) := by
  show FloatOps.matmul dot_S4096x128_S128x128_S4096x128_1_0_0_1_n_n none A B (constant S4096x128 .f32 0x00000000#32) (ix2 a b) = _
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 a b) ((ValueIdx.contrEquiv1 dot_S4096x128_S128x128_S4096x128_1_0_0_1_n_n 128 rfl rfl).symm k) = ix2 a k :=
    funext fun ax => Fin.ext (by
      match ax with
      | ⟨0, _⟩ => exact lhsT_0 _ _
      | ⟨1, _⟩ => exact (lhsT_1 _ _).trans hk)
  have er : dot_S4096x128_S128x128_S4096x128_1_0_0_1_n_n.rhsIdx (ix2 a b) ((ValueIdx.contrEquiv1 dot_S4096x128_S128x128_S4096x128_1_0_0_1_n_n 128 rfl rfl).symm k) = ix2 k b :=
    funext fun ax => Fin.ext (by
      match ax with
      | ⟨0, _⟩ => exact (rhsT_0 _ _).trans hk
      | ⟨1, _⟩ => exact rhsT_1 _ _)
  rw [el, er]

/-- The [4096, 6] radial block times the [6, 256] pair of radial weight matrices: the left operand's row coordinate is the result's row. -/
theorem lhsR_0 (i : S4096x256.Idx) (q : dot_S4096x6_S6x256_S4096x256_1_0_0_1_n_n.contr.Idx) :
    (dot_S4096x6_S6x256_S4096x256_1_0_0_1_n_n.lhsIdx i q 0).val = (i 0).val := by
  unfold DotDims.lhsIdx
  rw [dif_neg (show ¬(0 : Fin S4096x6.rank) ∈ dot_S4096x6_S6x256_S4096x256_1_0_0_1_n_n.lhsBatch by decide),
    dif_pos (show (0 : Fin S4096x6.rank) ∈ dot_S4096x6_S6x256_S4096x256_1_0_0_1_n_n.lhsNonContracting by decide)]
  rfl
/-- The [4096, 6] radial block times the [6, 256] pair of radial weight matrices: the left operand's column coordinate is the summation index. -/
theorem lhsR_1 (i : S4096x256.Idx) (q : dot_S4096x6_S6x256_S4096x256_1_0_0_1_n_n.contr.Idx) :
    (dot_S4096x6_S6x256_S4096x256_1_0_0_1_n_n.lhsIdx i q 1).val = (q ⟨0, by decide⟩).val :=
  dot_S4096x6_S6x256_S4096x256_1_0_0_1_n_n.lhsIdx_val_of_single rfl i q
/-- The [4096, 6] radial block times the [6, 256] pair of radial weight matrices: the right operand's row coordinate is the summation index. -/
theorem rhsR_0 (i : S4096x256.Idx) (q : dot_S4096x6_S6x256_S4096x256_1_0_0_1_n_n.contr.Idx) :
    (dot_S4096x6_S6x256_S4096x256_1_0_0_1_n_n.rhsIdx i q 0).val = (q ⟨0, by decide⟩).val :=
  dot_S4096x6_S6x256_S4096x256_1_0_0_1_n_n.rhsIdx_val_of_single rfl i q
/-- The [4096, 6] radial block times the [6, 256] pair of radial weight matrices: the right operand's column coordinate is the result's column. -/
theorem rhsR_1 (i : S4096x256.Idx) (q : dot_S4096x6_S6x256_S4096x256_1_0_0_1_n_n.contr.Idx) :
    (dot_S4096x6_S6x256_S4096x256_1_0_0_1_n_n.rhsIdx i q 1).val = (i 1).val := by
  unfold DotDims.rhsIdx
  rw [dif_neg (show ¬(1 : Fin S6x256.rank) ∈ dot_S4096x6_S6x256_S4096x256_1_0_0_1_n_n.rhsBatch by decide),
    dif_pos (show (1 : Fin S6x256.rank) ∈ dot_S4096x6_S6x256_S4096x256_1_0_0_1_n_n.rhsNonContracting by decide)]
  rfl

/-- The [4096, 6] radial block times the [6, 256] pair of radial weight matrices into the zero accumulator: entry (a, b) is the sum over k of left (a, k) times right (k, b). -/
theorem matmulR_apply (A : FVec Ideal S4096x6 .bf16) (B : FVec Ideal S6x256 .bf16) (a : Fin 4096) (b : Fin 256) :
    matmul dot_S4096x6_S6x256_S4096x256_1_0_0_1_n_n none A B (constant S4096x256 .f32 0x00000000#32) (ix2 a b)
      = ∑ k : Fin 6, A (ix2 a k) * B (ix2 k b) := by
  show FloatOps.matmul dot_S4096x6_S6x256_S4096x256_1_0_0_1_n_n none A B (constant S4096x256 .f32 0x00000000#32) (ix2 a b) = _
  rw [Ideal.matmul_constant_zero_apply, ← Equiv.sum_comp (ValueIdx.contrEquiv1 dot_S4096x6_S6x256_S4096x256_1_0_0_1_n_n 6 rfl rfl).symm]
  refine Finset.sum_congr rfl fun k _ => ?_
  have hk := ValueIdx.contrEquiv1_symm_val dot_S4096x6_S6x256_S4096x256_1_0_0_1_n_n 6 rfl rfl k
  have el : dot_S4096x6_S6x256_S4096x256_1_0_0_1_n_n.lhsIdx (ix2 a b) ((ValueIdx.contrEquiv1 dot_S4096x6_S6x256_S4096x256_1_0_0_1_n_n 6 rfl rfl).symm k) = ix2 a k :=
    funext fun ax => Fin.ext (by
      match ax with
      | ⟨0, _⟩ => exact lhsR_0 _ _
      | ⟨1, _⟩ => exact (lhsR_1 _ _).trans hk)
  have er : dot_S4096x6_S6x256_S4096x256_1_0_0_1_n_n.rhsIdx (ix2 a b) ((ValueIdx.contrEquiv1 dot_S4096x6_S6x256_S4096x256_1_0_0_1_n_n 6 rfl rfl).symm k) = ix2 k b :=
    funext fun ax => Fin.ext (by
      match ax with
      | ⟨0, _⟩ => exact (rhsR_0 _ _).trans hk
      | ⟨1, _⟩ => exact rhsR_1 _ _)
  rw [el, er]

/-! ## Keeping an axis of extent one, and the indicator of a word -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-bit comparison of a word with a column number, widened to 32 bits and read as a signed integer, is 1
    where the word's value is that number and 0 elsewhere. -/
theorem indicator_eq (w : BitVec 32) (k : Fin 128) :
    FloatOps.sitofp (F := Ideal) .f32 ((IntOp.cmpi .eq w (BitVec.ofNat 32 k.val)).setWidth 32)
      = if w.toNat = k.val then (1 : EReal) else 0 := by
  show ((((IntOp.cmpi .eq w (BitVec.ofNat 32 k.val)).setWidth 32).toInt : ℝ) : EReal) = _
  have hk : k.val % 2 ^ 32 = k.val := Nat.mod_eq_of_lt (by have := k.isLt; omega)
  by_cases h : w.toNat = k.val
  · have hw : w = BitVec.ofNat 32 k.val := BitVec.eq_of_toNat_eq (by rw [BitVec.toNat_ofNat, hk, h])
    have hc : IntOp.cmpi .eq w (BitVec.ofNat 32 k.val) = 1#1 := by
      unfold IntOp.cmpi
      rw [hw]
      show BitVec.ofBool (BitVec.ofNat 32 k.val == BitVec.ofNat 32 k.val) = 1#1
      rw [beq_self_eq_true]; rfl
    have h1 : ((1#1 : BitVec 1).setWidth 32).toInt = 1 := by decide
    rw [hc, h1, if_pos h, Int.cast_one, EReal.coe_one]
  · have hc : IntOp.cmpi .eq w (BitVec.ofNat 32 k.val) = 0#1 := by
      unfold IntOp.cmpi
      have hne : (w == BitVec.ofNat 32 k.val) = false := by
        rw [beq_eq_false_iff_ne]
        intro e
        exact h (by rw [e, BitVec.toNat_ofNat, hk])
      show BitVec.ofBool (w == BitVec.ofNat 32 k.val) = 0#1
      rw [hne]; rfl
    have h0 : ((0#1 : BitVec 1).setWidth 32).toInt = 0 := by decide
    rw [hc, h0, if_neg h, Int.cast_zero, EReal.coe_zero]

/-! ## The body's values at an entry -/

/-- The indicator rows of a block of class words: the words spread along the rows, compared with the column
    numbers, the one-bit result widened and read as a signed integer. -/
def onehot (x : Vec Ideal S4096 .i32) : FVec Ideal S4096x128 .bf16 :=
  truncf .bf16 (sitofp .f32 (extui 32 (cmpi .eq
    (broadcastTo S4096x128 (shapeCast S4096x1 (shapeCast S4096 x shapeCasts_S4096_S4096) shapeCasts_S4096_S4096x1)
      broadcasts_S4096x1_S4096x128)
    (iota .tc S4096x128 32 [1] iota_S4096x128_d1_w32)) natLt_1_32)) bitsLt_bf16_f32

/-- Entry (p, k) of the indicator rows is 1 where row p's word has the value k and 0 elsewhere. -/
theorem onehot_apply (x : Vec Ideal S4096 .i32) (p : Fin 4096) (k : Fin 128) :
    onehot x (ix2 p k) = if (x (ix1 p)).toNat = k.val then (1 : EReal) else 0 := by
  have e1 : broadcastTo S4096x128 (shapeCast S4096x1 (shapeCast S4096 x shapeCasts_S4096_S4096) shapeCasts_S4096_S4096x1)
      broadcasts_S4096x1_S4096x128 (ix2 p k) = x (ix1 p) := by
    refine (broadcastTo_a1_ab_apply _ _ p k).trans ?_
    refine (shapeCast_a_a1_apply _ _ p 0).trans ?_
    rw [shapeCast_self]
  have e2 : iota .tc S4096x128 32 [1] iota_S4096x128_d1_w32 (ix2 p k) = BitVec.ofNat 32 k.val :=
    iota_single_apply .tc S4096x128 32 1 _ (ix2 p k)
  show FloatOps.sitofp (F := Ideal) .f32 ((IntOp.cmpi .eq
    (broadcastTo S4096x128 (shapeCast S4096x1 (shapeCast S4096 x shapeCasts_S4096_S4096) shapeCasts_S4096_S4096x1)
      broadcasts_S4096x1_S4096x128 (ix2 p k))
    (iota .tc S4096x128 32 [1] iota_S4096x128_d1_w32 (ix2 p k))).setWidth 32) = _
  rw [e1, e2]
  exact indicator_eq _ k

/-- The indicator rows times a 128-row table pick, for a word below 128, the table's row of that number: a sum
    against the indicator of one position is the term there. -/
theorem pay4_apply (T : Vec Ideal S128x128 .bf16) (x : Vec Ideal S4096 .i32) (p : Fin 4096) (k : Fin 128)
    (h : (x (ix1 p)).toNat < 128) :
    k0_pay4 (F := Ideal) T x (ix2 p k) = T (ix2 (row128 (x (ix1 p))) k) := by
  unfold k0_pay4 k0_pay3
  dsimp only
  refine (truncf_apply (ψ := .bf16) (φ := .f32) _ _ _).trans ?_
  refine (matmulT_apply _ _ p k).trans ?_
  rw [shapeCast_self T]
  have hv : (row128 (x (ix1 p))).val = (x (ix1 p)).toNat := by
    show min (x (ix1 p)).toNat 127 = (x (ix1 p)).toNat
    omega
  refine sum_indicator (row128 (x (ix1 p))) (fun k' => onehot x (ix2 p k')) (fun k' => T (ix2 k' k)) ?_ ?_
  · show onehot x (ix2 p (row128 (x (ix1 p)))) = 1
    rw [onehot_apply, if_pos hv.symm]
  · intro k' hk'
    show onehot x (ix2 p k') = 0
    rw [onehot_apply, if_neg (fun e => hk' (Fin.ext (e.symm.trans hv.symm)))]

/-- The second end's class words go through the same operations. -/
theorem pay5_eq (T : Vec Ideal S128x128 .bf16) (x : Vec Ideal S4096 .i32) : k0_pay5 (F := Ideal) T x = k0_pay4 (F := Ideal) T x := rfl

/-- The radial block times the two radial weight matrices side by side: entry (p, c) is the sum over the six radial
    functions. -/
theorem pay6_apply (R : Vec Ideal S4096x6 .f32) (W : Vec Ideal S6x256 .bf16) (p : Fin 4096) (c : Fin 256) :
    k0_pay6 (F := Ideal) R W (ix2 p c) = ∑ q : Fin 6, R (ix2 p q) * W (ix2 q c) := by
  unfold k0_pay6
  refine (matmulR_apply _ _ p c).trans ?_
  rw [shapeCast_self, shapeCast_self]
  rfl

/-- The last 128 columns of that product: the second radial projection. -/
theorem pay7_apply (R : Vec Ideal S4096x6 .f32) (W : Vec Ideal S6x256 .bf16) (p : Fin 4096) (k : Fin 128) :
    k0_pay7 (F := Ideal) R W (ix2 p k) = ∑ q : Fin 6, R (ix2 p q) * W (ix2 q (colB k)) := by
  unfold k0_pay7
  refine (slice2_axis1_apply 128 _ _ p k (colB k) rfl).trans ?_
  exact pay6_apply R W p (colB k)

/-- y times the logistic of y, elementwise, is silu at each element. -/
theorem silu_apply {s : Shape} (y : FVec Ideal s .f32) (i : s.Idx) : mulf y (logistic y) i = silu (y i) := rfl

/-- A bias vector laid as one row and spread over the rows reads its entry of the column. -/
theorem bias_apply (b : Vec Ideal S128 .f32) (p : Fin 4096) (k : Fin 128) :
    broadcastTo S4096x128 (shapeCast S1x128 b shapeCasts_S128_S1x128) broadcasts_S1x128_S4096x128 (ix2 p k) = b (ix1 k) :=
  (broadcastTo_1b_ab_apply _ _ p k).trans (shapeCast_a_1a_apply _ _ 0 k)

/-- The first 128 columns of the radial product plus the bias, through silu: the gated first radial projection. -/
theorem pay8_apply (R : Vec Ideal S4096x6 .f32) (W : Vec Ideal S6x256 .bf16) (b : Vec Ideal S128 .f32) (p : Fin 4096) (k : Fin 128) :
    k0_pay8 (F := Ideal) R W b (ix2 p k) = blockGate R W b p k := by
  unfold k0_pay8
  refine (truncf_apply (ψ := .bf16) (φ := .f32) _ _ _).trans ?_
  refine (silu_apply _ _).trans ?_
  unfold blockGate
  refine congrArg silu ?_
  refine (addf_apply _ _ _).trans ?_
  refine congrArg₂ (· + ·) ?_ (bias_apply b p k)
  refine (slice2_axis1_apply 0 _ _ p k (colA k) (Nat.zero_add _).symm).trans ?_
  exact pay6_apply R W p (colA k)

/-- The linear layer on three row blocks against three weight matrices, the three products summed in the order
    (first + second) + third, plus the bias, through silu. -/
theorem pay1_apply (A B G : FVec Ideal S4096x128 .bf16) (W0 W1 : FVec Ideal S128x128 .bf16) (W2 : Vec Ideal S128x128 .bf16)
    (b : Vec Ideal S128 .f32) (p : Fin 4096) (cc : Fin 128) :
    k0_pay1 (F := Ideal) A B G W0 W1 W2 b (ix2 p cc)
      = silu (((∑ k : Fin 128, A (ix2 p k) * W0 (ix2 k cc) + ∑ k : Fin 128, B (ix2 p k) * W1 (ix2 k cc))
          + ∑ k : Fin 128, G (ix2 p k) * W2 (ix2 k cc)) + b (ix1 cc)) := by
  unfold k0_pay1
  refine (silu_apply _ _).trans ?_
  refine congrArg silu ?_
  refine (addf_apply _ _ _).trans ?_
  refine congrArg₂ (· + ·) ?_ (bias_apply b p cc)
  refine (addf_apply _ _ _).trans ?_
  refine congrArg₂ (· + ·) ?_ ?_
  · refine (addf_apply _ _ _).trans ?_
    exact congrArg₂ (· + ·) (matmulT_apply A W0 p cc) (matmulT_apply B W1 p cc)
  · refine (matmulT_apply G _ p cc).trans ?_
    rw [shapeCast_self]

/-! ## The two output blocks -/

/-- The zero offsets of a whole rank-1 block, and of a whole rank-2 block. -/
theorem hz1 : (![0] : Fin 1 → Nat) = fun _ => 0 := funext fun a => match a with | ⟨0, _⟩ => rfl
theorem hz2 : (![0, 0] : Fin 2 → Nat) = fun _ => 0 := funext fun a => match a with | ⟨0, _⟩ => rfl | ⟨1, _⟩ => rfl

/-- A weight matrix cast to its own shape is itself. -/
theorem pay9_eq (W : Vec Ideal S128x128 .bf16) : k0_pay9 (F := Ideal) W = W := by
  unfold k0_pay9
  exact shapeCast_self _ _
/-- Likewise the second weight matrix. -/
theorem pay10_eq (W : Vec Ideal S128x128 .bf16) : k0_pay10 (F := Ideal) W = W := by
  unfold k0_pay10
  exact shapeCast_self _ _

/-- The first result's payload over the blocks themselves, at (p, cc). -/
theorem pay1_block (x0 x1 : Vec Ideal S4096 .i32) (x2 : Vec Ideal S4096x6 .f32) (x3 : Vec Ideal S128x128 .bf16) (x4 : Vec Ideal S6x256 .bf16)
    (x5 : Vec Ideal S128 .f32) (x6 x7 x8 : Vec Ideal S128x128 .bf16) (x9 : Vec Ideal S128 .f32) (p : Fin 4096) (cc : Fin 128)
    (hi : (x0 (ix1 p)).toNat < 128) (hj : (x1 (ix1 p)).toNat < 128) :
    k0_pay1 (F := Ideal) (k0_pay4 x3 x0) (k0_pay5 x3 x1) (k0_pay8 x2 x4 x5) (k0_pay9 x6) (k0_pay10 x7) x8 x9 (ix2 p cc)
      = silu (blockLin x0 x1 x2 x3 x4 x5 x6 x7 x8 x9 p cc) := by
  refine (pay1_apply _ _ _ _ _ _ _ p cc).trans ?_
  unfold blockLin rowLin
  rw [pay9_eq, pay10_eq, pay5_eq]
  refine congrArg silu ?_
  refine congrArg₂ (· + ·) (congrArg₂ (· + ·) (congrArg₂ (· + ·) ?_ ?_) ?_) rfl
  · exact Finset.sum_congr rfl fun k _ => congrArg (· * x6 (ix2 k cc)) (pay4_apply x3 x0 p k hi)
  · exact Finset.sum_congr rfl fun k _ => congrArg (· * x7 (ix2 k cc)) (pay4_apply x3 x1 p k hj)
  · exact Finset.sum_congr rfl fun k _ => congrArg (· * x8 (ix2 k cc)) (pay8_apply x2 x4 x5 p k)

/-- The first output block at (p, cc): the whole-block loads read the blocks and the one whole-block store leaves its value. -/
theorem out10_apply (x0 x1 : Vec Ideal S4096 .i32) (x2 : Vec Ideal S4096x6 .f32) (x3 : Vec Ideal S128x128 .bf16) (x4 : Vec Ideal S6x256 .bf16)
    (x5 : Vec Ideal S128 .f32) (x6 x7 x8 : Vec Ideal S128x128 .bf16) (x9 : Vec Ideal S128 .f32) (p : Fin 4096) (cc : Fin 128)
    (hi : (x0 (ix1 p)).toNat < 128) (hj : (x1 (ix1 p)).toNat < 128) :
    out0_10 (F := Ideal) x0 x1 x2 x3 x4 x5 x6 x7 x8 x9 (ix2 p cc) = silu (blockLin x0 x1 x2 x3 x4 x5 x6 x7 x8 x9 p cc) := by
  unfold out0_10
  rw [View.canon_unit_zero hz2]
  simp only [View.ld_unit_zero (S := S128x128) hz2, View.ld_unit_zero (S := S4096) hz1, View.ld_unit_zero (S := S4096x6) hz2,
    View.ld_unit_zero (S := S6x256) hz2, View.ld_unit_zero (S := S128) hz1]
  exact pay1_block x0 x1 x2 x3 x4 x5 x6 x7 x8 x9 p cc hi hj

/-- The second output block at (p, cc): the kept radial columns times the first result. -/
theorem out11_apply (x0 x1 : Vec Ideal S4096 .i32) (x2 : Vec Ideal S4096x6 .f32) (x3 : Vec Ideal S128x128 .bf16) (x4 : Vec Ideal S6x256 .bf16)
    (x5 : Vec Ideal S128 .f32) (x6 x7 x8 : Vec Ideal S128x128 .bf16) (x9 : Vec Ideal S128 .f32) (p : Fin 4096) (cc : Fin 128)
    (hi : (x0 (ix1 p)).toNat < 128) (hj : (x1 (ix1 p)).toNat < 128) :
    out0_11 (F := Ideal) x0 x1 x2 x3 x4 x5 x6 x7 x8 x9 (ix2 p cc)
      = (∑ q : Fin 6, x2 (ix2 p q) * x4 (ix2 q (colB cc))) * silu (blockLin x0 x1 x2 x3 x4 x5 x6 x7 x8 x9 p cc) := by
  unfold out0_11
  rw [View.canon_unit_zero hz2]
  simp only [View.ld_unit_zero (S := S128x128) hz2, View.ld_unit_zero (S := S4096) hz1, View.ld_unit_zero (S := S4096x6) hz2,
    View.ld_unit_zero (S := S6x256) hz2, View.ld_unit_zero (S := S128) hz1]
  unfold k0_pay2
  refine (mulf_apply _ _ _).trans ?_
  exact congrArg₂ (· * ·) (pay7_apply x2 x4 p cc) (pay1_block x0 x1 x2 x3 x4 x5 x6 x7 x8 x9 p cc hi hj)

end Cert.KernelIdeal.Body

end
-- ==== Proof.KernelValue.lean ====
/-
  The kernel's two result arrays after its run, at the ideal values.

  What a point writes back is its block of ONE function of the staged arrays (padOut1, padOut2), the blocks tile the
  503808 rows, and the two host lines after the launch keep the first 500000 rows. On those rows the staged arrays
  are the arguments, and a class word below 100 names its own row of the table padded with zero rows: the edge layer of
  Spec.lean.
-/
import proofs.«419893_j6828998001281_3_alg».proof.Proof.Gen.KernelIdeal.Frame
import proofs.«419893_j6828998001281_3_alg».proof.Proof.Spec
import proofs.«419893_j6828998001281_3_alg».proof.Proof.KernelBody
import proofs.«419893_j6828998001281_3_alg».proof.Proof.KernelHost
import proofs.«419893_j6828998001281_3_alg».proof.Proof.KernelBlocks
import Idealize.ShloMosaic.Lib.ValueIdx
import Idealize.ShloMosaic.Lib.Pipeline.Value
import Idealize.ShloMosaic.Lib.StableHlo.Run

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body Cert.KernelIdeal.HostValue Cert.EdgeGate

variable (m : (ℓ : Loc nD τ sig) → Buf (Elt Ideal) ℓ) (ρ : Dev nD → PrngReg)

/-- The class words, as the launch finds them. -/
abbrev xs (c : Dev nD) : IVec S50000 32 := m ((c.tc : Thread nD τ).loc main_arg0)

/-- rowLin respects entrywise equality of its rows and columns. -/
theorem rowLin_congr {ri rj g w0 w1 w2 ri' rj' g' w0' w1' w2' : Fin 128 → EReal} {bl bl' : EReal}
    (h1 : ∀ k, ri k = ri' k) (h2 : ∀ k, rj k = rj' k) (h3 : ∀ k, g k = g' k) (h4 : ∀ k, w0 k = w0' k)
    (h5 : ∀ k, w1 k = w1' k) (h6 : ∀ k, w2 k = w2' k) (h7 : bl = bl') :
    rowLin ri rj g w0 w1 w2 bl = rowLin ri' rj' g' w0' w1' w2' bl' := by
  rw [funext h1, funext h2, funext h3, funext h4, funext h5, funext h6, h7]

/-! ## The staged class words are below 128 -/

theorem class_i_lt (hx : ∀ (c : Dev nD) (n : Fin 50000), (xs m c (ix1 n)).toNat < 100) (c : Dev nD) (P : Fin 503808) :
    (Aci m c (ix1 P)).toNat < 100 := by
  show ((V m c main_v24 : IVec S503808 32) (ix1 P)).toNat < 100
  rw [V_class_i]
  split
  · exact hx c _
  · decide

theorem class_j_lt (hx : ∀ (c : Dev nD) (n : Fin 50000), (xs m c (ix1 n)).toNat < 100) (c : Dev nD) (P : Fin 503808) :
    (Acj m c (ix1 P)).toNat < 100 := by
  show ((V m c main_v25 : IVec S503808 32) (ix1 P)).toNat < 100
  rw [V_class_j]
  split
  · exact hx c _
  · decide

/-! ## What a point writes back -/

/-- Row p of point t's blocks enters the linear layer as row 4096 t + p of the staged arrays does: each block entry
    is its array's entry there, and the weight blocks are the whole weight arrays. -/
theorem blockLin_eq (c : Dev nD) (t : Fin cfg0.N) (p : Fin 4096) (cc : Fin 128) :
    blockLin (iblk m c 0 t) (iblk m c 1 t) (iblk m c 2 t) (iblk m c 3 t) (iblk m c 4 t) (iblk m c 5 t) (iblk m c 6 t) (iblk m c 7 t)
        (iblk m c 8 t) (iblk m c 9 t) p cc = padLin m c (rowAt t p) cc := by
  unfold blockLin padLin
  refine rowLin_congr (fun k => ?_) (fun k => ?_) (fun k => ?_) (fun k => ?_) (fun k => ?_) (fun k => ?_) ?_
  · rw [blk3, blk0]
  · rw [blk3, blk1]
  · unfold blockGate
    rw [blk5]
    exact congrArg (fun s => silu (s + Ab0 m c (ix1 k))) (Finset.sum_congr rfl fun q _ => by rw [blk2, blk4])
  · rw [blk6]
  · rw [blk7]
  · rw [blk8]
  · rw [blk9]

theorem flushed10_eq (hx : ∀ (c : Dev nD) (n : Fin 50000), (xs m c (ix1 n)).toNat < 100) (c : Dev nD) (t : Fin cfg0.N) :
    (dats m 0 c).flushed 10 t = ((cfg0.win 10).blk t).view.read (Elt Ideal) (padOut1 m c) := by
  show (cfg0.win 10).cut (grid0.coords t) ((dats m 0 c).after 10 t) = _
  rw [after0_10]
  funext y
  have hy0 : (y 0).val < 4096 := (y 0).isLt
  have hy1 : (y 1).val < 128 := (y 1).isLt
  have ex : (cfg0.win 10).xinj (grid0.coords t) y = (ix2 (⟨(y 0).val, hy0⟩ : Fin 4096) (⟨(y 1).val, hy1⟩ : Fin 128) : S4096x128.Idx) :=
    funext fun a => Fin.ext (by match a with | ⟨0, _⟩ => rfl | ⟨1, _⟩ => rfl)
  show out0_10 (iblk m c 0 t) (iblk m c 1 t) (iblk m c 2 t) (iblk m c 3 t) (iblk m c 4 t) (iblk m c 5 t) (iblk m c 6 t) (iblk m c 7 t)
      (iblk m c 8 t) (iblk m c 9 t) ((cfg0.win 10).xinj (grid0.coords t) y) = padOut1 m c (((cfg0.win 10).blk t).view.emb y)
  rw [ex, emb10 t y ⟨(y 0).val, hy0⟩ ⟨(y 1).val, hy1⟩ rfl rfl,
    out10_apply (iblk m c 0 t) (iblk m c 1 t) (iblk m c 2 t) (iblk m c 3 t) (iblk m c 4 t) (iblk m c 5 t) (iblk m c 6 t) (iblk m c 7 t)
      (iblk m c 8 t) (iblk m c 9 t) ⟨(y 0).val, hy0⟩ ⟨(y 1).val, hy1⟩
      (by rw [blk0]; exact lt_trans (class_i_lt m hx c _) (by decide)) (by rw [blk1]; exact lt_trans (class_j_lt m hx c _) (by decide)),
    blockLin_eq]
  rfl

theorem flushed11_eq (hx : ∀ (c : Dev nD) (n : Fin 50000), (xs m c (ix1 n)).toNat < 100) (c : Dev nD) (t : Fin cfg0.N) :
    (dats m 0 c).flushed 11 t = ((cfg0.win 11).blk t).view.read (Elt Ideal) (padOut2 m c) := by
  show (cfg0.win 11).cut (grid0.coords t) ((dats m 0 c).after 11 t) = _
  rw [after0_11]
  funext y
  have hy0 : (y 0).val < 4096 := (y 0).isLt
  have hy1 : (y 1).val < 128 := (y 1).isLt
  have ex : (cfg0.win 11).xinj (grid0.coords t) y = (ix2 (⟨(y 0).val, hy0⟩ : Fin 4096) (⟨(y 1).val, hy1⟩ : Fin 128) : S4096x128.Idx) :=
    funext fun a => Fin.ext (by match a with | ⟨0, _⟩ => rfl | ⟨1, _⟩ => rfl)
  show out0_11 (iblk m c 0 t) (iblk m c 1 t) (iblk m c 2 t) (iblk m c 3 t) (iblk m c 4 t) (iblk m c 5 t) (iblk m c 6 t) (iblk m c 7 t)
      (iblk m c 8 t) (iblk m c 9 t) ((cfg0.win 11).xinj (grid0.coords t) y) = padOut2 m c (((cfg0.win 11).blk t).view.emb y)
  rw [ex, emb11 t y ⟨(y 0).val, hy0⟩ ⟨(y 1).val, hy1⟩ rfl rfl,
    out11_apply (iblk m c 0 t) (iblk m c 1 t) (iblk m c 2 t) (iblk m c 3 t) (iblk m c 4 t) (iblk m c 5 t) (iblk m c 6 t) (iblk m c 7 t)
      (iblk m c 8 t) (iblk m c 9 t) ⟨(y 0).val, hy0⟩ ⟨(y 1).val, hy1⟩
      (by rw [blk0]; exact lt_trans (class_i_lt m hx c _) (by decide)) (by rw [blk1]; exact lt_trans (class_j_lt m hx c _) (by decide)),
    blockLin_eq]
  show _ = (∑ q : Fin 6, Arbf m c (ix2 (rowAt t ⟨(y 0).val, hy0⟩) q) * Awcat m c (ix2 q (colB ⟨(y 1).val, hy1⟩))) * silu (padLin m c (rowAt t ⟨(y 0).val, hy0⟩) ⟨(y 1).val, hy1⟩)
  exact congrArg (· * silu (padLin m c (rowAt t ⟨(y 0).val, hy0⟩) ⟨(y 1).val, hy1⟩)) (Finset.sum_congr rfl fun q _ => by rw [blk2, blk4])

/-! ## The two padded arrays after the launch -/

theorem final10 (hx : ∀ (c : Dev nD) (n : Fin 50000), (xs m c (ix1 n)).toNat < 100) (c : Dev nD) :
    (dats m 0 c).arrAt 10 cfg0.N = padOut1 m c :=
  (dats m 0 c).arrAt_eq_of_cover 10 (padOut1 m c) (fun t _ => flushed10_eq m hx c t) cover10

theorem final11 (hx : ∀ (c : Dev nD) (n : Fin 50000), (xs m c (ix1 n)).toNat < 100) (c : Dev nD) :
    (dats m 0 c).arrAt 11 cfg0.N = padOut2 m c :=
  (dats m 0 c).arrAt_eq_of_cover 11 (padOut2 m c) (fun t _ => flushed11_eq m hx c t) cover11

end Cert.KernelIdeal.Hand

end
-- ==== Proof.KernelRun.lean ====
/-
  The kernel's run, read: its two results are the edge layer of Spec.lean wherever every class word is below 100.

  After the launch the two padded arrays hold padOut1 and padOut2; the two host lines after it keep rows 0 … 499999.
  On such a row the staged arrays are the arguments: the padded class words are the class words of the edge's end nodes,
  the padded features the features, the side-by-side radial weights the two matrices, the three weight pieces the three
  stretches of the linear layer's rows; and a class word below 100 names its own row of the table padded with zero rows,
  the row the reference's clamped take reads.
-/
import proofs.«419893_j6828998001281_3_alg».proof.Proof.Gen.KernelIdeal.Frame
import proofs.«419893_j6828998001281_3_alg».proof.Proof.Spec
import proofs.«419893_j6828998001281_3_alg».proof.Proof.KernelHost
import proofs.«419893_j6828998001281_3_alg».proof.Proof.KernelBlocks
import proofs.«419893_j6828998001281_3_alg».proof.Proof.KernelValue
import Idealize.ShloMosaic.Lib.ValueIdx
import Idealize.ShloMosaic.Lib.Pipeline.Value
import Idealize.ShloMosaic.Lib.StableHlo.Run

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.HostValue Cert.EdgeGate

variable (m : (ℓ : Loc nD τ sig) → Buf (Elt Ideal) ℓ) (ρ : Dev nD → PrngReg)

/-- The kernel's two results: the first 500000 rows of the padded arrays. -/
def out1 (c : Dev nD) : FVec Ideal S500000x128 .f32 :=
  extractStridedSlice S500000x128 ![0, 0] (padOut1 m c) slices_S503808x128_S500000x128_0_0
def out2 (c : Dev nD) : FVec Ideal S500000x128 .f32 :=
  extractStridedSlice S500000x128 ![0, 0] (padOut2 m c) slices_S503808x128_S500000x128_0_0

/-- The padded row of a real edge. -/
def padRow (r : Fin 500000) : Fin 503808 := ⟨r.val, by have := r.isLt; omega⟩

theorem out1_at (c : Dev nD) (r : Fin 500000) (cc : Fin 128) : out1 m c (ix2 r cc) = silu (padLin m c (padRow r) cc) := by
  unfold out1
  rw [extractStridedSlice_apply _ _ slices_S503808x128_S500000x128_0_0 (ix2 r cc) (ix2 (padRow r) cc) (fun a => by
    match a with
    | ⟨0, _⟩ => show r.val = 0 + r.val; omega
    | ⟨1, _⟩ => show cc.val = 0 + cc.val; omega)]
  rfl

theorem out2_at (c : Dev nD) (r : Fin 500000) (cc : Fin 128) :
    out2 m c (ix2 r cc) = (∑ q : Fin 6, Arbf m c (ix2 (padRow r) q) * Awcat m c (ix2 q (colB cc))) * silu (padLin m c (padRow r) cc) := by
  unfold out2
  rw [extractStridedSlice_apply _ _ slices_S503808x128_S500000x128_0_0 (ix2 r cc) (ix2 (padRow r) cc) (fun a => by
    match a with
    | ⟨0, _⟩ => show r.val = 0 + r.val; omega
    | ⟨1, _⟩ => show cc.val = 0 + cc.val; omega)]
  rfl

/-! ## The staged arrays on a real edge's row are the arguments -/

theorem row128_val {w : BitVec 32} (hw : w.toNat < 128) : (row128 w).val = w.toNat := by
  show min w.toNat 127 = w.toNat
  omega

/-- A class word below 100 names, in the table padded with zero rows, the row the clamped take reads. -/
theorem tab_row (c : Dev nD) (w : BitVec 32) (hw : w.toNat < 100) (k : Fin 128) :
    Atab m c (ix2 (row128 w) k) = (m ((c.tc : Thread nD τ).loc main_arg4) : FVec Ideal S100x128 .f32) (ix2 (classOf w) k) := by
  have h128 : (row128 w).val = w.toNat := row128_val (by omega)
  show (V m c main_v15 : FVec Ideal S128x128 .bf16) (ix2 (row128 w) k) = _
  rw [V_table, dif_pos (show (row128 w).val < 100 by rw [h128]; exact hw)]
  exact congrArg (fun a : Fin 100 => (m ((c.tc : Thread nD τ).loc main_arg4) : FVec Ideal S100x128 .f32) (ix2 a k))
    (Fin.ext (by show (row128 w).val = (classOf w).val; rw [h128, classOf_val hw]))

theorem ci_row (c : Dev nD) (r : Fin 500000) :
    Aci m c (ix1 (padRow r)) = classWord (xs m c) (m ((c.tc : Thread nD τ).loc main_arg2)) r := by
  show (V m c main_v24 : IVec S503808 32) (ix1 (padRow r)) = _
  rw [V_class_i, dif_pos (show (padRow r).val < 500000 from r.isLt)]
  rfl

theorem cj_row (c : Dev nD) (r : Fin 500000) :
    Acj m c (ix1 (padRow r)) = classWord (xs m c) (m ((c.tc : Thread nD τ).loc main_arg3)) r := by
  show (V m c main_v25 : IVec S503808 32) (ix1 (padRow r)) = _
  rw [V_class_j, dif_pos (show (padRow r).val < 500000 from r.isLt)]
  rfl

theorem rbf_row (c : Dev nD) (r : Fin 500000) (q : Fin 6) :
    Arbf m c (ix2 (padRow r) q) = (m ((c.tc : Thread nD τ).loc main_arg1) : FVec Ideal S500000x6 .f32) (ix2 r q) := by
  show (V m c main_v26 : FVec Ideal S503808x6 .f32) (ix2 (padRow r) q) = _
  rw [V_rbf, dif_pos (show (padRow r).val < 500000 from r.isLt)]
  rfl

theorem wcat_A (c : Dev nD) (q : Fin 6) (k : Fin 128) :
    Awcat m c (ix2 q (colA k)) = (m ((c.tc : Thread nD τ).loc main_arg5) : FVec Ideal S6x128 .f32) (ix2 q k) := by
  show (V m c main_v23 : FVec Ideal S6x256 .bf16) (ix2 q (colA k)) = _
  rw [V_wcat, dif_pos (show (colA k).val < 128 from k.isLt)]

theorem wcat_B (c : Dev nD) (q : Fin 6) (k : Fin 128) :
    Awcat m c (ix2 q (colB k)) = (m ((c.tc : Thread nD τ).loc main_arg9) : FVec Ideal S6x128 .f32) (ix2 q k) := by
  show (V m c main_v23 : FVec Ideal S6x256 .bf16) (ix2 q (colB k)) = _
  rw [V_wcat, dif_neg (show ¬ (colB k).val < 128 by show ¬ (128 + k.val < 128); omega)]
  exact congrArg (fun a : Fin 128 => (m ((c.tc : Thread nD τ).loc main_arg9) : FVec Ideal S6x128 .f32) (ix2 q a))
    (Fin.ext (by show 128 + k.val - 128 = k.val; omega))

theorem padLin_eq (hx : ∀ (c : Dev nD) (n : Fin 50000), (xs m c (ix1 n)).toNat < 100) (c : Dev nD) (r : Fin 500000) (cc : Fin 128) :
    padLin m c (padRow r) cc
      = lin (xs m c) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) r cc := by
  unfold padLin lin
  refine rowLin_congr (fun k => ?_) (fun k => ?_) (fun k => ?_) (fun k => ?_) (fun k => ?_) (fun k => ?_) ?_
  · rw [ci_row]; exact tab_row m c _ (hx c _) k
  · rw [cj_row]; exact tab_row m c _ (hx c _) k
  · unfold gate0 radial
    have hb : Ab0 m c (ix1 k) = (m ((c.tc : Thread nD τ).loc main_arg6) : FVec Ideal S128 .f32) (ix1 k) :=
      congrFun (V_main_arg6 m c) (ix1 k)
    rw [hb]
    exact congrArg (fun s => silu (s + (m ((c.tc : Thread nD τ).loc main_arg6) : FVec Ideal S128 .f32) (ix1 k)))
      (Finset.sum_congr rfl fun q _ => by rw [rbf_row, wcat_A])
  · exact V_w0 m c k cc
  · exact V_w1 m c k cc
  · exact V_w2 m c k cc
  · exact congrFun (V_main_arg8 m c) (ix1 cc)

theorem out1_apply (hx : ∀ (c : Dev nD) (n : Fin 50000), (xs m c (ix1 n)).toNat < 100) (c : Dev nD) (r : Fin 500000) (cc : Fin 128) :
    out1 m c (ix2 r cc)
      = e1 (xs m c) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) r cc := by
  rw [out1_at, padLin_eq m hx]
  rfl

theorem out2_apply (hx : ∀ (c : Dev nD) (n : Fin 50000), (xs m c (ix1 n)).toNat < 100) (c : Dev nD) (r : Fin 500000) (cc : Fin 128) :
    out2 m c (ix2 r cc)
      = e2 (xs m c) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) r cc := by
  rw [out2_at, padLin_eq m hx]
  unfold e2 e1 radial
  exact congrArg (· * silu _) (Finset.sum_congr rfl fun q _ => by rw [rbf_row, wcat_B])

/-! ## The host lines after the launch -/

theorem tail28 (c : Dev nD) :
    Pipeline.afterTail₀ cfgs (dats m) 0 (V0 m) [hostOps1] c main_v28
      = extractStridedSlice S500000x128 ![0, 0] ((dats m 0 c).arrAt 10 cfg0.N) slices_S503808x128_S500000x128_0_0 := by
  unfold Pipeline.afterTail₀
  show StableHlo.after hostOps1 _ (Proc.devRef .tc main_v28) = _
  after_results
  exact congrArg (fun x => extractStridedSlice S500000x128 ![0, 0] x slices_S503808x128_S500000x128_0_0)
    (Pipeline.withArrays_arr spec0 launch0.win.arr_inj c _ _ 10)

theorem tail29 (c : Dev nD) :
    Pipeline.afterTail₀ cfgs (dats m) 0 (V0 m) [hostOps1] c main_v29
      = extractStridedSlice S500000x128 ![0, 0] ((dats m 0 c).arrAt 11 cfg0.N) slices_S503808x128_S500000x128_0_0 := by
  unfold Pipeline.afterTail₀
  show StableHlo.after hostOps1 _ (Proc.devRef .tc main_v29) = _
  after_results
  exact congrArg (fun x => extractStridedSlice S500000x128 ![0, 0] x slices_S503808x128_S500000x128_0_0)
    (Pipeline.withArrays_arr spec0 launch0.win.arr_inj c _ _ 11)

/-! ## The run -/

/-- Wherever every class word is below 100: every weakly fair execution ends with the two results at out1 and out2 and
    the ten arguments as launched. -/
theorem run (hx : ∀ (c : Dev nD) (n : Fin 50000), (xs m c (ix1 n)).toNat < 100) :
    θ_run defs (onTc (τ := τ) (main (F := Ideal))) ⟨m, fun _ => 0, ρ⟩ (fun r => ∀ c : Dev nD,
      r.2.mem ((c.tc : Thread nD τ).loc main_v28) = out1 m c
      ∧ r.2.mem ((c.tc : Thread nD τ).loc main_v29) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).2 main_v28 (Pipeline.mem_restRefs_of main_v28 (by decide) (by decide))).trans
        ((tail28 m c).trans (congrArg (fun x => extractStridedSlice S500000x128 ![0, 0] x slices_S503808x128_S500000x128_0_0) (final10 m hx c))),
      ((h c).2 main_v29 (Pipeline.mem_restRefs_of main_v29 (by decide) (by decide))).trans
        ((tail29 m c).trans (congrArg (fun x => extractStridedSlice S500000x128 ![0, 0] x slices_S503808x128_S500000x128_0_0) (final11 m hx c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 5).trans (((dats m 0 c).arrAt_in 5 rfl _).trans ((A_eq m c 5).trans (V_main_arg6 m c))),
      (((h c).2 main_arg7 (Pipeline.mem_restRefs_of main_arg7 (by decide) (by decide))).trans (W_main_arg7 m (dats m) c)),
      ((h c).1 9).trans (((dats m 0 c).arrAt_in 9 rfl _).trans ((A_eq m c 9).trans (V_main_arg8 m c))),
      (((h c).2 main_arg9 (Pipeline.mem_restRefs_of main_arg9 (by decide) (by decide))).trans (W_main_arg9 m (dats m) c))⟩)
    (run_main m ρ)

end Cert.KernelIdeal.Hand

end
-- ==== Proof.lean ====
/-
  The five claims of the certificate (proof/Defs.lean).

  The three frames: the two kernel programs' by their launch proofs, the reference's by its run read back. The
  idealization rewrote nothing, so there is nothing to preserve. The equivalence: under the precondition every class
  word is below 100 (the printed predicate read back), so both programs end with the edge layer of Spec.lean in their
  two results — the kernel by its blocks' entries and the rows its one-hot products select, the reference by its takes,
  its concatenation and the three stretches of its 384-term sums — from memories that agree on the ten arguments.
-/
import proofs.«419893_j6828998001281_3_alg».proof.Defs
import proofs.«419893_j6828998001281_3_alg».proof.Proof.Gen.Kernel
import proofs.«419893_j6828998001281_3_alg».proof.Proof.Gen.Kernel.Skeleton
import proofs.«419893_j6828998001281_3_alg».proof.Proof.Gen.Kernel.Launch
import proofs.«419893_j6828998001281_3_alg».proof.Proof.Gen.Kernel.Points
import proofs.«419893_j6828998001281_3_alg».proof.Proof.Gen.Kernel.Frame
import proofs.«419893_j6828998001281_3_alg».proof.Proof.Gen.KernelIdeal
import proofs.«419893_j6828998001281_3_alg».proof.Proof.Gen.KernelIdeal.Skeleton
import proofs.«419893_j6828998001281_3_alg».proof.Proof.Gen.KernelIdeal.Launch
import proofs.«419893_j6828998001281_3_alg».proof.Proof.Gen.KernelIdeal.Points
import proofs.«419893_j6828998001281_3_alg».proof.Proof.Gen.KernelIdeal.Frame
import proofs.«419893_j6828998001281_3_alg».proof.Proof.Gen.ReferenceIdeal
import proofs.«419893_j6828998001281_3_alg».proof.Proof.Gen.ReferenceIdeal.Run
import proofs.«419893_j6828998001281_3_alg».proof.Proof.Gen.Pre_finite_inputs
import proofs.«419893_j6828998001281_3_alg».proof.Proof.PreDecode
import proofs.«419893_j6828998001281_3_alg».proof.Proof.RefValue
import proofs.«419893_j6828998001281_3_alg».proof.Proof.KernelRun
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end at the edge layer of the agreed arguments. -/
theorem algebraic : Cert.algebraic_KernelIdeal_ReferenceIdeal := by
  intro m ρ m' ρ' hpre hagree
  have hx : ∀ (c : Dev Cert.KernelIdeal.nD) (n : Fin 50000), (Cert.KernelIdeal.Hand.xs m c (ix1 n)).toNat < 100 :=
    fun c n => Cert.Pre_finite_inputs.Decode.classes_in_range _ _ _ _ _ _ _ _ _ _ (hpre c) n
  refine ⟨fun c => Cert.KernelIdeal.Hand.out1 m c, fun c => Cert.KernelIdeal.Hand.out2 m c, Cert.KernelIdeal.Hand.run m ρ hx, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9⟩ := hagree c
    funext j
    obtain ⟨r, cc, rfl⟩ : ∃ (r : Fin 500000) (cc : Fin 128), j = ix2 r cc := ⟨j 0, j 1, eq_ix2 j⟩
    refine (Cert.ReferenceIdeal.RefValue.out0_apply m' c r cc).trans ?_
    rw [h0, h1, h2, h3, h4, h5, h6, h7, h8]
    exact (Cert.KernelIdeal.Hand.out1_apply m hx c r cc).symm
  · obtain ⟨h0, h1, h2, h3, h4, h5, h6, h7, h8, h9⟩ := hagree c
    funext j
    obtain ⟨r, cc, rfl⟩ : ∃ (r : Fin 500000) (cc : Fin 128), j = ix2 r cc := ⟨j 0, j 1, eq_ix2 j⟩
    refine (Cert.ReferenceIdeal.RefValue.out1_apply m' c r cc).trans ?_
    rw [h0, h1, h2, h3, h4, h5, h6, h7, h8, h9]
    exact (Cert.KernelIdeal.Hand.out2_apply m hx c r cc).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
